-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S3x64 .f32) (main_arg6 : FVec F S64x40 .f32) (main_arg7 : FVec F S40 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x64 .f32) (main_arg3 : FVec F S64 .f32) (main_arg4 : FVec F S3x64x64 .f32) (main_arg5 : FVec F S3x64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64x64 : Shape := ⟨3, ![1, 64, 64]⟩
abbrev S64x64 : Shape := ⟨2, ![64, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 115
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S3x64x64, .f32⟩
  | .hbm, ⟨5, _⟩ => ⟨S3x64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x64, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64x64, .f32⟩
  | .hbm, ⟨42, _⟩ => ⟨S64x64, .f32⟩
  | .hbm, ⟨43, _⟩ => ⟨S1x64, .f32⟩
  | .hbm, ⟨44, _⟩ => ⟨S64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x64, .f32⟩
  | .hbm, ⟨66, _⟩ => ⟨S1600000x64, .i1⟩
  | .hbm, ⟨67, _⟩ => ⟨S_, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S1x64x64, .f32⟩
  | .hbm, ⟨75, _⟩ => ⟨S64x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S100000x64, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1, .i32⟩
  | .hbm, ⟨89, _⟩ => ⟨S_, .i32⟩
  | .hbm, ⟨90, _⟩ => ⟨S1600000x1, .i32⟩
  | .hbm, ⟨91, _⟩ => ⟨S1600000x1, .i1⟩
  | .hbm, ⟨92, _⟩ => ⟨S1x1, .i32⟩
  | .hbm, ⟨93, _⟩ => ⟨S1600000x1, .i32⟩
  | .hbm, ⟨94, _⟩ => ⟨S1600000x1, .i1⟩
  | .hbm, ⟨95, _⟩ => ⟨S1600000x1, .i1⟩
  | .hbm, ⟨96, _⟩ => ⟨S_, .i1⟩
  | .hbm, ⟨97, _⟩ => ⟨S1600000, .i1⟩
  | .hbm, ⟨98, _⟩ => ⟨S1600000x64, .f32⟩
  | .hbm, ⟨99, _⟩ => ⟨S1600000x64, .i1⟩
  | .hbm, ⟨100, _⟩ => ⟨S_, .f32⟩
  | .hbm, ⟨101, _⟩ => ⟨S1600000x64, .f32⟩
  | .hbm, ⟨102, _⟩ => ⟨S1600000x64, .f32⟩
  | .hbm, ⟨103, _⟩ => ⟨S_, .f32⟩
  | .hbm, ⟨104, _⟩ => ⟨S100000x64, .f32⟩
  | .hbm, ⟨105, _⟩ => ⟨S1600000x1, .i32⟩
  | .hbm, ⟨106, _⟩ => ⟨S100000x64, .f32⟩
  | .hbm, ⟨107, _⟩ => ⟨S1x64x64, .f32⟩
  | .hbm, ⟨108, _⟩ => ⟨S64x64, .f32⟩
  | .hbm, ⟨109, _⟩ => ⟨S1x64, .f32⟩
  | .hbm, ⟨110, _⟩ => ⟨S64, .f32⟩
  | .hbm, ⟨111, _⟩ => ⟨S1x64, .f32⟩
  | .hbm, ⟨112, _⟩ => ⟨S100000x64, .f32⟩
  | .hbm, ⟨113, _⟩ => ⟨S1x40, .f32⟩
  | .hbm, ⟨114, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x40, .f32⟩
  | .local _ .vmem, ⟨33, _⟩ => ⟨S1x40, .f32⟩
  | .local _ .vmem, ⟨34, _⟩ => ⟨S5000x40, .f32⟩
  | .local _ .vmem, ⟨35, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v16 : Ref sig .tc := ⟨.hbm, 69, rfl⟩
abbrev main_cst_0 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v26 : Ref sig .tc := ⟨.hbm, 102, rfl⟩
abbrev main_cst_1 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S100000x40 : Shape := ⟨2, ![100000, 40]⟩
abbrev S1x40 : Shape := ⟨2, ![1, 40]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S3x64x64, .f32⟩
  | .hbm, ⟨5, _⟩ => ⟨S3x64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S1x64x64, .f32⟩
  | .hbm, ⟨34, _⟩ => ⟨S64x64, .f32⟩
  | .hbm, ⟨35, _⟩ => ⟨S100000x64, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S100000x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S1x64x64, .f32⟩
  | .hbm, ⟨59, _⟩ => ⟨S64x64, .f32⟩
  | .hbm, ⟨60, _⟩ => ⟨S100000x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x64, .f32⟩
  | .hbm, ⟨83, _⟩ => ⟨S1x64x64, .f32⟩
  | .hbm, ⟨84, _⟩ => ⟨S64x64, .f32⟩
  | .hbm, ⟨85, _⟩ => ⟨S100000x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call1_cst : Ref sig .tc := ⟨.hbm, 41, rfl⟩
abbrev main_call1_v0 : Ref sig .tc := ⟨.hbm, 42, rfl⟩
abbrev main_v28 : Ref sig .tc := ⟨.hbm, 43, rfl⟩
abbrev main_c_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call2_cst : Ref sig .tc := ⟨.hbm, 66, rfl⟩
abbrev main_call2_v0 : Ref sig .tc := ⟨.hbm, 67, rfl⟩
abbrev main_v48 : Ref sig .tc := ⟨.hbm, 68, rfl⟩
abbrev main_c_4 : Ref sig .tc := ⟨.hbm, 69, rfl⟩
abbrev main_v49 : Ref sig .tc := ⟨.hbm, 70, rfl⟩
abbrev main_v50 : Ref sig .tc := ⟨.hbm, 71, rfl⟩
abbrev main_c_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call3_cst : Ref sig .tc := ⟨.hbm, 91, rfl⟩
abbrev main_call3_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  What both programs compute, written once over whole arrays of extended reals.

  A graph of 100000 nodes and 1600000 directed edges; every node carries a feature row. The input projection
  sends a 128-wide row `x` to `max (x · W + b) 0` (64 wide). Each of three message-passing layers adds to
  a node's row the sum of the rows of the source nodes of the edges that end at it (`agg`), multiplies by a
  64 × 64 matrix, adds a bias and clamps at zero. The classifier is one more product and bias, 40 wide,
  with no clamp. Products are the textbook sums over the contracted axis; the aggregation is the host's
  gather of source rows followed by its accumulating scatter at the destination rows, kept as those two
  operations (neither program opens them).
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SN128 : Shape := ⟨2, ![100000, 128]⟩
abbrev SN64 : Shape := ⟨2, ![100000, 64]⟩
abbrev SN40 : Shape := ⟨2, ![100000, 40]⟩
abbrev S128x64 : Shape := ⟨2, ![128, 64]⟩
abbrev S64x64 : Shape := ⟨2, ![64, 64]⟩
abbrev S64x40 : Shape := ⟨2, ![64, 40]⟩
abbrev S1x64 : Shape := ⟨2, ![1, 64]⟩
abbrev S1x40 : Shape := ⟨2, ![1, 40]⟩
abbrev S64 : Shape := ⟨1, ![64]⟩
abbrev S40 : Shape := ⟨1, ![40]⟩
abbrev S3x64x64 : Shape := ⟨3, ![3, 64, 64]⟩
abbrev S1x64x64 : Shape := ⟨3, ![1, 64, 64]⟩
abbrev S3x64 : Shape := ⟨2, ![3, 64]⟩
abbrev S2xE : Shape := ⟨2, ![2, 1600000]⟩
abbrev S1xE : Shape := ⟨2, ![1, 1600000]⟩
abbrev SE : Shape := ⟨1, ![1600000]⟩
abbrev SEx1 : Shape := ⟨2, ![1600000, 1]⟩
abbrev SEx64 : Shape := ⟨2, ![1600000, 64]⟩
abbrev S_ : Shape := ⟨0, ![]⟩

/-- The row coordinate of a rank-2 index, typed by the literal extent. -/
abbrev row {n d : Nat} (i : (⟨2, ![n, d]⟩ : Shape).Idx) : Fin n := ⟨(i 0).val, (i 0).isLt⟩
/-- The column coordinate of a rank-2 index, typed by the literal extent. -/
abbrev col {n d : Nat} (i : (⟨2, ![n, d]⟩ : Shape).Idx) : Fin d := ⟨(i 1).val, (i 1).isLt⟩

/-- The input projection: entry `(r, j)` is `max (∑ₖ x[r,k] · w[k,j] + b[0,j]) 0`. -/
def proj (x : FVec Ideal SN128 .f32) (w : FVec Ideal S128x64 .f32) (b : FVec Ideal S1x64 .f32) : FVec Ideal SN64 .f32 :=
  fun i => max ((∑ k : Fin 128, x (ix2 (row i) k) * w (ix2 k (col i))) + b (ix2 (0 : Fin 1) (col i))) 0

/-- One layer's dense half: entry `(r, j)` is `max (∑ₖ (h[r,k] + a[r,k]) · w[k,j] + b[0,j]) 0`. -/
def layer (h a : FVec Ideal SN64 .f32) (w : FVec Ideal S64x64 .f32) (b : FVec Ideal S1x64 .f32) : FVec Ideal SN64 .f32 :=
  fun i => max ((∑ k : Fin 64, (h (ix2 (row i) k) + a (ix2 (row i) k)) * w (ix2 k (col i))) + b (ix2 (0 : Fin 1) (col i))) 0

/-- The classifier: entry `(r, j)` is `∑ₖ h[r,k] · w[k,j] + b[0,j]`. -/
def cls (h : FVec Ideal SN64 .f32) (w : FVec Ideal S64x40 .f32) (b : FVec Ideal S1x40 .f32) : FVec Ideal SN40 .f32 :=
  fun i => (∑ k : Fin 64, h (ix2 (row i) k) * w (ix2 k (col i))) + b (ix2 (0 : Fin 1) (col i))

/-- Row `r` (0 for the sources, 1 for the destinations) of the edge list, as a vector over the edges. -/
def edgeRow (r : Nat) (e : IVec S2xE 32) (h : S2xE.Slices ![r, 0] S1xE) : IVec SE 32 :=
  shapeCast SE (extractStridedSlice S1xE ![r, 0] e h) (by decide)

/-- A negative node number counts from the end: `s + 100000` where `s < 0`, else `s`. -/
def wrap (s : IVec SE 32) : IVec SE 32 :=
  select (cmpi .slt s (broadcastInDim SE ![] (by decide) (constantI S_ 32 0#32)))
    (addi s (broadcastInDim SE ![] (by decide) (constantI S_ 32 100000#32))) s

/-- The gather of one whole feature row per edge. -/
def gd : GatherDims SN64 SEx1 SEx64 where
  offsetDims := [1]
  collapsedSliceDims := [0]
  operandBatchingDims := []
  startIndicesBatchingDims := []
  startIndexMap := [0]
  indexVectorDim := 1
  sliceSizes := ![1, 64]

/-- The accumulating scatter of one whole feature row per edge. -/
def sd : ScatterDims SN64 SEx1 SEx64 where
  updateWindowDims := [1]
  insertedWindowDims := [0]
  scatterDimsToOperandDims := [0]
  indexVectorDim := 1

/-- The aggregation: node `d`'s row is the sum, over the edges that end at `d`, of the source node's row of `h`. -/
def agg (h : FVec Ideal SN64 .f32) (e : IVec S2xE 32) : FVec Ideal SN64 .f32 :=
  Host.scatterAdd sd (broadcastInDim SN64 ![] (by decide) (constant (F := Ideal) S_ .f32 0x00000000#32))
    (broadcastInDim SEx1 ![0] (by decide) (edgeRow 1 e (by decide)))
    (Host.gather gd h (broadcastInDim SEx1 ![0] (by decide) (wrap (edgeRow 0 e (by decide)))))

/-- Layer `k`'s matrix: slab `k` of the stacked weights. -/
def wOf (k : Nat) (ws : FVec Ideal S3x64x64 .f32) (h : S3x64x64.Slices ![k, 0, 0] S1x64x64) : FVec Ideal S64x64 .f32 :=
  shapeCast S64x64 (extractStridedSlice S1x64x64 ![k, 0, 0] ws h) (by decide)

/-- Layer `k`'s bias as a one-row matrix: row `k` of the stacked biases. -/
def bOf (k : Nat) (bs : FVec Ideal S3x64 .f32) (h : S3x64.Slices ![k, 0] S1x64) : FVec Ideal S1x64 .f32 :=
  shapeCast S1x64 (shapeCast S64 (extractStridedSlice S1x64 ![k, 0] bs h) (by decide)) (by decide)

/-- One whole layer: aggregate, then the dense half. -/
def step (k : Nat) (h : FVec Ideal SN64 .f32) (e : IVec S2xE 32) (ws : FVec Ideal S3x64x64 .f32) (bs : FVec Ideal S3x64 .f32)
    (hw : S3x64x64.Slices ![k, 0, 0] S1x64x64) (hb : S3x64.Slices ![k, 0] S1x64) : FVec Ideal SN64 .f32 :=
  layer h (agg h e) (wOf k ws hw) (bOf k bs hb)

/-- The whole network. -/
def net (x : FVec Ideal SN128 .f32) (e : IVec S2xE 32) (w_in : FVec Ideal S128x64 .f32) (b_in : FVec Ideal S64 .f32)
    (ws : FVec Ideal S3x64x64 .f32) (bs : FVec Ideal S3x64 .f32) (w_cls : FVec Ideal S64x40 .f32) (b_cls : FVec Ideal S40 .f32) :
    FVec Ideal SN40 .f32 :=
  cls (step 2 (step 1 (step 0 (proj x w_in (shapeCast S1x64 b_in (by decide))) e ws bs (by decide) (by decide)) e ws bs (by decide) (by decide)) e ws bs (by decide) (by decide))
    w_cls (shapeCast S1x40 b_cls (by decide))

end Cert.Spec

end
-- ==== Proof.TakeFill.lean ====
/-
  A row gather whose out-of-range reads are replaced by a fill value is the plain row gather when every
  row number is in range: the fill's mask is then all ones, so the selection keeps every gathered entry.
  Likewise counting a negative row number from the end changes nothing when none is negative.
-/
import Idealize.ShloMosaic.PureOps
import Idealize.ShloMosaic.Lib.ReduceAll
import Idealize.ShloMosaic.Lib.StableHlo.Predicate
import proofs.«426346_j35716948034358_1_alg».proof.Proof.Spec

noncomputable section

namespace Cert.TakeFill

open Idealize.ShloMosaic Cert.Spec

abbrev S1 : Shape := ⟨1, ![1]⟩
abbrev S1x1 : Shape := ⟨2, ![1, 1]⟩

/-- Every node number of `s` lies in `[0, 100000)`, as the two signed comparisons say it. -/
def InRange (s : IVec SE 32) : Prop :=
  ∀ j : SE.Idx, IntOp.cmpi .sge (s j) 0#32 = 1#1 ∧ IntOp.cmpi .slt (s j) 100000#32 = 1#1

/-- A word that is at least zero is not below zero (both read signed). -/
theorem not_slt_zero_of_sge {x : BitVec 32} (h : IntOp.cmpi .sge x 0#32 = 1#1) : ¬ IntOp.cmpi .slt x 0#32 = 1#1 := by
  rw [IntOp.cmpi_sge] at h
  rw [IntOp.cmpi_slt]
  omega

/-- A word below 100000 is at most 99999 (both read signed). -/
theorem sle_of_slt {x : BitVec 32} (h : IntOp.cmpi .slt x 100000#32 = 1#1) : IntOp.cmpi .sle x 99999#32 = 1#1 := by
  have e1 : (100000#32 : BitVec 32).toInt = 100000 := by decide
  have e2 : (99999#32 : BitVec 32).toInt = 99999 := by decide
  rw [IntOp.cmpi_slt, e1] at h
  rw [IntOp.cmpi_sle, e2]
  omega

/-- A left fold by `and` from 1 over a list whose every entry is 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and`, from 1, of a mask that is 1 everywhere is 1 at every result index. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x _ fun n _ => hx n

/-- A selection whose mask is 1 everywhere keeps its first operand. -/
theorem select_of_one {s : Shape} {α : Type} (c : IVec s 1) (a b : s.Idx → α) (hc : ∀ i, c i = 1#1) : select c a b = a := by
  funext i
  simp only [select, Scalar.select]
  exact if_pos (hc i)

/-- No node number is negative, so none is counted from the end. -/
theorem wrap_eq (s : IVec SE 32) (hs : InRange s) : wrap s = s := by
  funext j
  show (if IntOp.cmpi .slt (s j) 0#32 = 1 then IntOp.addi (s j) 100000#32 else s j) = s j
  exact if_neg (not_slt_zero_of_sge (hs j).1)

/-- The filled gather is the gather: the mask "0 ≤ row ≤ 99999", reduced over the index vector's one
    component and spread over the feature axis, is all ones. -/
theorem fill_eq {α : Type} (s : IVec SE 32) (hs : InRange s) (g fill : SEx64.Idx → α)
    (hb : SE.BroadcastsInDim SEx1 (![0] : Fin 1 → Fin SEx1.rank))
    (hz : S_.BroadcastsInDim SEx1 (![] : Fin 0 → Fin SEx1.rank))
    (h1 : S1.BroadcastsInDim S1x1 (![1] : Fin 1 → Fin S1x1.rank))
    (h11 : S1x1.BroadcastsInDim SEx1 (![0, 1] : Fin 2 → Fin SEx1.rank))
    (hred : SEx1.ReducesTo [1] SE) (h0 : 0 < S_.numel)
    (hm : SE.BroadcastsInDim SEx64 (![0] : Fin 1 → Fin SEx64.rank)) :
    select (broadcastInDim SEx64 ![0] hm
        (Host.reduce IntOp.andi
          (andi (cmpi .sge (broadcastInDim SEx1 ![0] hb s) (broadcastInDim SEx1 ![] hz (constantI S_ 32 0#32)))
            (cmpi .sle (broadcastInDim SEx1 ![0] hb s) (broadcastInDim SEx1 ![0, 1] h11 (broadcastInDim S1x1 ![1] h1 (constantI S1 32 99999#32)))))
          (constantI S_ 1 1#1) hred h0))
      g fill = g := by
  have hmask : ∀ i' : SEx1.Idx,
      andi (cmpi .sge (broadcastInDim SEx1 ![0] hb s) (broadcastInDim SEx1 ![] hz (constantI S_ 32 0#32)))
        (cmpi .sle (broadcastInDim SEx1 ![0] hb s) (broadcastInDim SEx1 ![0, 1] h11 (broadcastInDim S1x1 ![1] h1 (constantI S1 32 99999#32)))) i' = 1#1 := by
    intro i'
    exact IntOp.andi_eq_one.2 ⟨(hs _).1, sle_of_slt (hs _).2⟩
  exact select_of_one _ g fill fun i => reduce_andi_one _ _ hred h0 rfl hmask _

end Cert.TakeFill

end
-- ==== Proof.PreSrc.lean ====
/-
  The precondition's last conjunct, read: every source node number of the edge list lies in `[0, 100000)`.
-/
import proofs.«426346_j35716948034358_1_alg».proof.Pre_finite_inputs
import proofs.«426346_j35716948034358_1_alg».proof.Proof.Gen.Pre_finite_inputs
import proofs.«426346_j35716948034358_1_alg».proof.Proof.TakeFill
import Idealize.ShloMosaic.Lib.ReduceAll
import Idealize.ShloMosaic.Lib.ValueIdx

noncomputable section

namespace Cert.PreSrc

open Idealize.ShloMosaic Cert.Spec

/-- Where the precondition holds, the sources (row 0 of the edge list) are node numbers in range. -/
theorem src_inRange [Cert.Pre_finite_inputs.Facts]
    (a0 : FVec Ideal SN128 .f32) (a1 : IVec S2xE 32) (a2 : FVec Ideal S128x64 .f32) (a3 : FVec Ideal S64 .f32)
    (a4 : FVec Ideal S3x64x64 .f32) (a5 : FVec Ideal S3x64 .f32) (a6 : FVec Ideal S64x40 .f32) (a7 : FVec Ideal S40 .f32)
    (h : Cert.Pre_finite_inputs.fn (F := Ideal) a0 a1 a2 a3 a4 a5 a6 a7 = fun _ => 1#1) :
    Cert.TakeFill.InRange (edgeRow 0 a1 (by decide)) := by
  intro j
  haveI : Subsingleton Cert.Pre_finite_inputs.S_.Idx := ⟨fun a b => funext fun d => d.elim0⟩
  -- the predicate at its one index is a chain of conjunctions; the last conjunct is the reduction over the edges
  have hall := congrFun h ValueIdx.ix0
  dsimp only [Cert.Pre_finite_inputs.fn, Cert.Pre_finite_inputs.fn_part1, Cert.Pre_finite_inputs.fn_part2] at hall
  have hred := (IntOp.andi_eq_one.1 hall).2
  -- a reduction by `and` that is 1 met a 1 at every edge
  have hj := Host.reduce_andi_all _ _ _ _ _ hred j
  exact IntOp.andi_eq_one.1 hj

end Cert.PreSrc

end
-- ==== Proof.Region0.lean ====
import proofs.«426346_j35716948034358_1_alg».proof.Proof.Gen.KernelIdeal.Frame
import proofs.«426346_j35716948034358_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Cert.KernelIdeal Cert.KernelIdeal.Gen
open Idealize.ShloMosaic.ValueIdx

namespace Cert.KernelIdeal.RegionValue

variable (V : (c : Dev nD) → (b : Ref sig .tc) → Buf (Elt Ideal) ((c : Thread nD τ).loc b))

namespace Region0

/-! ## The body's arithmetic at one entry -/

/-- The product's left operand index keeps the output's row on axis 0. -/
theorem lhs0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The product's left operand index carries the contraction coordinate on axis 1. -/
theorem lhs0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The product's right operand index carries the contraction coordinate on axis 0. -/
theorem rhs0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The product's right operand index keeps the output's column on axis 1. -/
theorem rhs0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block product into the zero accumulator, at entry `(p, q)`: the sum over the 128 contracted coordinates. -/
theorem mm0_apply (a : FVec Ideal S5000x128 .bf16) (b : FVec Ideal S128x64 .bf16) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-- The one-row bias spread over the block's rows, at entry `(p, q)`: the row's entry `q`. -/
theorem bias0_apply (x2 : FVec Ideal S1x64 .f32) (p : Fin 5000) (q : Fin 64) :
    broadcastTo S5000x64 x2 broadcasts_S1x64_S5000x64 (ix2 p q) = x2 (ix2 (0 : Fin 1) q) := by
  refine broadcastTo_apply x2 broadcasts_S1x64_S5000x64 (ix2 p q) (ix2 (0 : Fin 1) q) (fun a => ?_)
  match a with
  | ⟨0, _⟩ => rfl
  | ⟨1, _⟩ => rfl

/-- The body's stored value at entry `(p, q)` of the block: the row of the first operand times the column of the
    second, plus the bias row's entry, clamped below at zero. -/
theorem pay0_apply (x0 : Vec Ideal S5000x128 .f32) (x1 : Vec Ideal S128x64 .f32) (x2 : Vec Ideal S1x64 .f32) (p : Fin 5000) (q : Fin 64) :
    k0_pay1 (F := Ideal) x0 x1 x2 (ix2 p q) = max ((∑ k : Fin 128, x0 (ix2 p k) * x1 (ix2 k q)) + x2 (ix2 (0 : Fin 1) q)) 0 := by
  unfold k0_pay1
  rw [maximumf_apply, addf_apply, mm0_apply, shapeCast_self, bias0_apply, broadcast_apply]
  show max ((∑ k : Fin 128, x0 (ix2 p k) * x1 (ix2 k q)) + x2 (ix2 (0 : Fin 1) q)) (Ideal.ofBits .f32 0x00000000#32) = _
  rw [Ideal.ofBits_zero_f32]

/-! ## From the blocks to the array -/

/-- The zero offsets of a whole-block access, as the constant function. -/
theorem hz0 : (![0, 0] : Fin 2 → Nat) = fun _ => 0 := funext fun a => by fin_cases a <;> rfl

/-- The index maps over the grid of 20 points: the row blocks of the first operand and of the output are both numbered
    by the grid point, on column block 0; the second operand and the bias are each their one block. -/
theorem idx_facts0 : ∀ t : Fin cfg0.N, t.val < 20
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The first operand's block at point `t`, at `(p, k)`: the array at row `5000 t + p`, column `k`. -/
theorem xblk0_read (c : Dev nD) (t : Fin cfg0.N) (p : Fin 5000) (k : Fin 128) (i : Cert.Spec.SN128.Idx)
    (h0 : (i 0).val = t.val * 5000 + p.val) (h1 : (i 1).val = k.val) :
    (iblk0 (F := Ideal) V c 0 t : Vec Ideal S5000x128 .f32) (ix2 p k) = V c main_arg0 i := by
  obtain ⟨-, e00, e01, -⟩ := idx_facts0 t
  show V c main_arg0 (((cfg0.win 0).blk t).view.emb (ix2 p k)) = V c main_arg0 i
  refine congrArg (V c main_arg0) (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The second operand's one block at any point, at `(k, q)`: the array there. -/
theorem wblk0_read (c : Dev nD) (t : Fin cfg0.N) (k : Fin 128) (q : Fin 64) (i : Cert.Spec.S128x64.Idx)
    (h0 : (i 0).val = k.val) (h1 : (i 1).val = q.val) :
    (iblk0 (F := Ideal) V c 1 t : Vec Ideal S128x64 .f32) (ix2 k q) = V c main_arg2 i := by
  obtain ⟨-, -, -, e10, e11, -⟩ := idx_facts0 t
  show V c main_arg2 (((cfg0.win 1).blk t).view.emb (ix2 k q)) = V c main_arg2 i
  refine congrArg (V c main_arg2) (funext fun a => Fin.ext ?_)
  match a with
  | ⟨0, _⟩ => show win0_1.index t (0 : Fin 2) * 128 + 1 * k.val = (i 0).val; omega
  | ⟨1, _⟩ => show win0_1.index t (1 : Fin 2) * 64 + 1 * q.val = (i 1).val; omega

/-- The bias row's one block at any point, at `(0, q)`: the row's entry `q`. -/
theorem bblk0_read (c : Dev nD) (t : Fin cfg0.N) (q : Fin 64) (i : Cert.Spec.S1x64.Idx)
    (h0 : (i 0).val = 0) (h1 : (i 1).val = q.val) :
    (iblk0 (F := Ideal) V c 2 t : Vec Ideal S1x64 .f32) (ix2 (0 : Fin 1) q) = V c main_v4 i := by
  obtain ⟨-, -, -, -, -, e20, e21, -⟩ := idx_facts0 t
  show V c main_v4 (((cfg0.win 2).blk t).view.emb (ix2 (0 : Fin 1) q)) = V c main_v4 i
  refine congrArg (V c main_v4) (funext fun a => Fin.ext ?_)
  match a with
  | ⟨0, _⟩ => show win0_2.index t (0 : Fin 2) * 1 + 1 * 0 = (i 0).val; omega
  | ⟨1, _⟩ => show win0_2.index t (1 : Fin 2) * 64 + 1 * q.val = (i 1).val; omega

/-- What point `t` writes back is block `t` of the input projection of the arrays the region found. -/
theorem flushed0_eq (c : Dev nD) (t : Fin cfg0.N) :
    (dat0 (F := Ideal) V c).flushed 3 t = ((cfg0.win 3).blk t).view.read (Elt Ideal) (Cert.Spec.proj (V c main_arg0) (V c main_arg2) (V c main_v4)) := by
  show (cfg0.win 3).cut (grid0.coords t) ((dat0 (F := Ideal) V c).after 3 t) = _
  rw [after0_3]
  unfold out0_3
  rw [View.canon_unit_zero hz0]
  simp only [View.ld_unit_zero (S := S5000x128) hz0, View.ld_unit_zero (S := S128x64) hz0, View.ld_unit_zero (S := S1x64) hz0]
  obtain ⟨-, -, -, -, -, -, -, e30, e31⟩ := idx_facts0 t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 (F := Ideal) V c 0 t) (iblk0 (F := Ideal) V c 1 t) (iblk0 (F := Ideal) V c 2 t) (ix2 p q)
    = Cert.Spec.proj (V c main_arg0) (V c main_arg2) (V c main_v4) (((cfg0.win 3).blk t).view.emb (ix2 p q))
  refine (pay0_apply (iblk0 (F := Ideal) V c 0 t) (iblk0 (F := Ideal) V c 1 t) (iblk0 (F := Ideal) V c 2 t) p q).trans ?_
  have r0 : ((((cfg0.win 3).blk t).view.emb (ix2 p q) : Cert.Spec.SN64.Idx) 0).val = t.val * 5000 + p.val := by
    show win0_3.index t (0 : Fin 2) * 5000 + 1 * p.val = _; omega
  have r1 : ((((cfg0.win 3).blk t).view.emb (ix2 p q) : Cert.Spec.SN64.Idx) 1).val = q.val := by
    show win0_3.index t (1 : Fin 2) * 64 + 1 * q.val = _; omega
  unfold Cert.Spec.proj
  refine congrArg (max · 0) (congrArg₂ (· + ·) (Finset.sum_congr rfl fun k _ => congrArg₂ (· * ·) ?_ ?_) ?_)
  · exact xblk0_read V c t p k _ r0 rfl
  · exact wblk0_read V c t k q _ rfl r1
  · exact bblk0_read V c t q _ rfl r1

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every index of the array is in some point's block: row `r` lies in row block `r / 5000`, and the one column
    block holds all 64 columns. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, -, -, -, e30, e31⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Region0

/-- After region 0 its output array is the input projection of the arrays the region found. -/
theorem final0 (c : Dev nD) :
    (dat0 (F := Ideal) V c).arrAt 3 cfg0.N = Cert.Spec.proj (V c main_arg0) (V c main_arg2) (V c main_v4) :=
  (dat0 (F := Ideal) V c).arrAt_eq_of_cover 3 (Cert.Spec.proj (V c main_arg0) (V c main_arg2) (V c main_v4))
    (fun t _ => Region0.flushed0_eq V c t) Region0.cover0

end Cert.KernelIdeal.RegionValue

end
-- ==== Proof.KernelHost.lean ====
/-
  The idealized kernel's array contents from the launch to the end of region 0, and the host's two
  irregular operations as the program computes them.

  The host gathers one feature row per edge at the edge's source node, with a fill for a node number out
  of range, and sums the gathered rows at the destination nodes. Where every source number is in range
  nothing is filled, and the two operations are the aggregation of Proof/Spec.lean. The first stretch of
  host operations cuts the edge list into sources and destinations and lays the input bias out as a row;
  region 0 then leaves the input projection of the launch arrays.
-/
import proofs.«426346_j35716948034358_1_alg».proof.Proof.Gen.KernelIdeal.Frame
import proofs.«426346_j35716948034358_1_alg».proof.Proof.Spec
import proofs.«426346_j35716948034358_1_alg».proof.Proof.TakeFill
import proofs.«426346_j35716948034358_1_alg».proof.Proof.Region0
import Idealize.ShloMosaic.Lib.StableHlo.Run

set_option maxRecDepth 16384

noncomputable section

open Idealize.ShloMosaic Idealize.ShloMosaic.TcCoe Idealize.SL.Sem Idealize.ShloMosaic.StableHlo
open Cert.KernelIdeal Cert.KernelIdeal.Gen Cert.KernelIdeal.RegionValue Cert.Spec Cert.TakeFill

namespace Cert.KernelIdeal.NetValue

/-! ## Transports along a buffer's type -/

/-- Reading back what was written at a tensor value's buffer: the two transports along the buffer's type cancel. -/
theorem ofBuf_toBuf {sig' : RefSig} {Val : EltTy → Type} {T : BufTy} (x : StableHlo.TRef sig' T) (v : T.Contents Val) :
    x.ofBuf (x.toBuf v) = v := by
  obtain ⟨r, rfl, _, _⟩ := x
  rfl

/-- A transport along an equation between a type and itself is the identity. -/
theorem cast_id {α : Type} (h : α = α) (v : α) : cast h v = v := rfl

/-! ## The host's gather with fill, and the aggregation over it -/

section Raw

variable {F : FTy → Type} [FloatOps F]

/-- The node numbers with the negative ones counted from the end, as the program writes it. -/
def wrapRaw (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The rows of `h` at the node numbers `s` as the program gathers them: negative numbers counted from the
    end, and a row whose number is then outside `[0, 99999]` replaced by the fill value. -/
def takeRaw (h : FVec F S100000x64 .f32) (s : IVec S1600000 32) : FVec F S1600000x64 .f32 :=
  select
    (broadcastInDim S1600000x64 ![0] bcast_S1600000_S1600000x64_0
      (Host.reduce IntOp.andi
        (andi
          (cmpi .sge (broadcastInDim S1600000x1 ![0] bcast_S1600000_S1600000x1_0 (wrapRaw s))
            (broadcastInDim S1600000x1 ![] bcast_S_S1600000x1 (constantI S_ 32 0#32)))
          (cmpi .sle (broadcastInDim S1600000x1 ![0] bcast_S1600000_S1600000x1_0 (wrapRaw s))
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 h
      (broadcastInDim S1600000x1 ![0] bcast_S1600000_S1600000x1_0 (wrapRaw s)))
    (broadcastInDim S1600000x64 ![] bcast_S_S1600000x64 (constant (F := F) S_ .f32 0x7FC00000#32))

/-- The sum, at each destination row, of the gathered source rows, as the program computes it. -/
def aggRaw (h : FVec F S100000x64 .f32) (s d : IVec S1600000 32) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 d) (takeRaw h s)

/-- With every node number in range nothing is filled: the gather with fill is the plain gather. -/
theorem takeRaw_eq (h : FVec F S100000x64 .f32) (s : IVec S1600000 32) (hs : InRange s) :
    takeRaw h s = Host.gather gd h (broadcastInDim (s := SE) SEx1 ![0] (by decide) (wrap s)) := by
  unfold takeRaw
  have hw : wrapRaw s = s := wrap_eq s hs
  rw [hw, wrap_eq s hs]
  exact fill_eq s hs _ _ _ _ _ _ _ _ _

end Raw

/-- With the sources in range the program's sum of gathered rows is the aggregation. -/
theorem aggRaw_eq (h : FVec Ideal SN64 .f32) (e : IVec S2xE 32) (hs : InRange (edgeRow 0 e (by decide))) :
    aggRaw (F := Ideal) h (edgeRow 0 e (by decide)) (edgeRow 1 e (by decide)) = agg h e := by
  unfold aggRaw agg
  rw [takeRaw_eq h _ hs]
  rfl

variable (m : (ℓ : Loc nD τ sig) → Buf (Elt Ideal) ℓ) (ρ : Dev nD → PrngReg)

/-- The launch arrays, typed by their literal shapes. -/
abbrev a0 (c : Dev nD) : FVec Ideal SN128 .f32 := m ((c : Thread nD τ).loc main_arg0)
abbrev a1 (c : Dev nD) : IVec S2xE 32 := m ((c : Thread nD τ).loc main_arg1)
abbrev a2 (c : Dev nD) : FVec Ideal S128x64 .f32 := m ((c : Thread nD τ).loc main_arg2)
abbrev a3 (c : Dev nD) : FVec Ideal S64 .f32 := m ((c : Thread nD τ).loc main_arg3)
abbrev a4 (c : Dev nD) : FVec Ideal S3x64x64 .f32 := m ((c : Thread nD τ).loc main_arg4)
abbrev a5 (c : Dev nD) : FVec Ideal S3x64 .f32 := m ((c : Thread nD τ).loc main_arg5)
abbrev a6 (c : Dev nD) : FVec Ideal S64x40 .f32 := m ((c : Thread nD τ).loc main_arg6)
abbrev a7 (c : Dev nD) : FVec Ideal S40 .f32 := m ((c : Thread nD τ).loc main_arg7)

/-! ## The first stretch: sources, destinations, the input bias as a row -/

theorem src_W1 (c : Dev nD) : W1 m ρ c (Proc.devRef .tc main_v1) = edgeRow 0 (a1 m c) (by decide) := by
  unfold W1; after_results_simp <;> rfl
theorem dst_W1 (c : Dev nD) : W1 m ρ c (Proc.devRef .tc main_v3) = edgeRow 1 (a1 m c) (by decide) := by
  unfold W1; after_results_simp <;> rfl
theorem bias_W1 (c : Dev nD) : W1 m ρ c (Proc.devRef .tc main_v4) = shapeCast S1x64 (a3 m c) (by decide) := by
  unfold W1; after_results_simp <;> rfl
theorem x_W1 (c : Dev nD) : W1 m ρ c (Proc.devRef .tc main_arg0) = a0 m c := by
  unfold W1; after_results_simp <;> rfl
theorem win_W1 (c : Dev nD) : W1 m ρ c (Proc.devRef .tc main_arg2) = a2 m c := by
  unfold W1; after_results_simp <;> rfl
theorem ws_W1 (c : Dev nD) : W1 m ρ c (Proc.devRef .tc main_arg4) = a4 m c := by
  unfold W1; after_results_simp <;> rfl
theorem bs_W1 (c : Dev nD) : W1 m ρ c (Proc.devRef .tc main_arg5) = a5 m c := by
  unfold W1; after_results_simp <;> rfl
theorem wcls_W1 (c : Dev nD) : W1 m ρ c (Proc.devRef .tc main_arg6) = a6 m c := by
  unfold W1; after_results_simp <;> rfl
theorem bcls_W1 (c : Dev nD) : W1 m ρ c (Proc.devRef .tc main_arg7) = a7 m c := by
  unfold W1; after_results_simp <;> rfl

/-! ## Region 0: the input projection -/

/-- After region 0 its output array is the input projection of the launch arrays. -/
theorem rows_W2 (c : Dev nD) :
    W2 m ρ c (Proc.devRef .tc main_v5) = proj (a0 m c) (a2 m c) (shapeCast S1x64 (a3 m c) (by decide)) := by
  refine (W2_arr m ρ c 3).trans ((final0 (V1 m ρ) c).trans ?_)
  show proj (W1 m ρ c (Proc.devRef .tc main_arg0)) (W1 m ρ c (Proc.devRef .tc main_arg2)) (W1 m ρ c (Proc.devRef .tc main_v4)) = _
  rw [x_W1, win_W1, bias_W1]

end Cert.KernelIdeal.NetValue

end
-- ==== Proof.LayerBody.lean ====
/-
  What the three dense-half regions share: their one kernel function's stored value, read at an index of its
  block. For loaded blocks h, a (5000 × 64), a matrix w (64 × 64) and a one-row bias b, the value stored at row p,
  column q is  max (∑ₖ (h[p,k] + a[p,k]) · w[k,q] + b[0,q]) 0.
-/
import proofs.«426346_j35716948034358_1_alg».proof.Proof.Gen.KernelIdeal.Skeleton
import proofs.«426346_j35716948034358_1_alg».proof.Proof.Spec
import Idealize.ShloMosaic.PureOps.Ideal.Laws
import Idealize.ShloMosaic.Lib.ValueIdx
import Idealize.ShloMosaic.Lib.Pipeline.Value

noncomputable section

open Idealize.ShloMosaic Idealize.ShloMosaic.ValueIdx
open Cert.KernelIdeal Cert.KernelIdeal.Gen

namespace Cert.KernelIdeal.LayerBody

/-! ## The product's operand indices, axis by axis -/

/-- The left operand's row is the output's row. -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left operand's column is the contracted coordinate. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand's row is the contracted coordinate. -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right operand's column is the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The product at an index -/

/-- The 5000 × 64 by 64 × 64 product accumulated into zero, read at row `p`, column `q`, is the textbook sum over
    the contracted coordinate. -/
theorem matmul_at {φ₁ φ₂ : FTy} (a : FVec Ideal S5000x64 φ₁) (b : FVec Ideal S64x64 φ₂) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun x => Fin.ext (by
    match x with
    | ⟨0, _⟩ => exact lhs_dot_0 _ _
    | ⟨1, _⟩ => exact (lhs_dot_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun x => Fin.ext (by
    match x with
    | ⟨0, _⟩ => exact (rhs_dot_0 _ _).trans hk
    | ⟨1, _⟩ => exact rhs_dot_1 _ _)
  rw [el, er]

/-! ## The bias row spread over the block -/

/-- The one-row bias broadcast to the block reads, at row `p`, column `q`, the bias's entry `(0, q)`. -/
theorem bias_at (b : Vec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun x => by
    match x with
    | ⟨0, _⟩ => rfl
    | ⟨1, _⟩ => rfl)

/-! ## The stored value at an index -/

/-- The dense half's stored block at row `p`, column `q`: the clamped affine image of the summed rows. -/
theorem pay_at (x0 x1 : Vec Ideal S5000x64 .f32) (x2 : Vec Ideal S64x64 .f32) (x3 : Vec Ideal S1x64 .f32)
    (p : Fin 5000) (q : Fin 64) :
    k1_pay1 (F := Ideal) x0 x1 x2 x3 (ix2 p q)
      = max ((∑ k : Fin 64, (x0 (ix2 p k) + x1 (ix2 p k)) * x2 (ix2 k q)) + x3 (ix2 (0 : Fin 1) q)) 0 := by
  unfold k1_pay1
  simp only [shapeCast_self]
  rw [maximumf_apply, addf_apply, matmul_at, bias_at, broadcast_apply]
  show max ((∑ k : Fin 64, (x0 (ix2 p k) + x1 (ix2 p k)) * x2 (ix2 k q)) + x3 (ix2 (0 : Fin 1) q)) (Ideal.ofBits .f32 0x00000000#32) = _
  rw [Ideal.ofBits_zero_f32]

/-! ## The specification's layer at an index of known coordinates -/

/-- The layer's entry at an index whose row is `r` and whose column is `q`. -/
theorem layer_at (h a : FVec Ideal Cert.Spec.SN64 .f32) (w : FVec Ideal Cert.Spec.S64x64 .f32) (b : FVec Ideal Cert.Spec.S1x64 .f32)
    (i : Cert.Spec.SN64.Idx) (r : Fin 100000) (q : Fin 64) (hr : (i 0).val = r.val) (hq : (i 1).val = q.val) :
    Cert.Spec.layer h a w b i
      = max ((∑ k : Fin 64, (h (ix2 r k) + a (ix2 r k)) * w (ix2 k q)) + b (ix2 (0 : Fin 1) q)) 0 := by
  obtain rfl : Cert.Spec.row i = r := Fin.ext hr
  obtain rfl : Cert.Spec.col i = q := Fin.ext hq
  rfl

/-- The zero offsets of a whole-buffer access, as the constant function. -/
theorem hz : (![0, 0] : Fin 2 → Nat) = fun _ => 0 := funext fun a => by fin_cases a <;> rfl

/-- Region 2's stored value is the same function of its loaded blocks as region 1's. -/
theorem k2_eq : @k2_pay1 Ideal _ = @k1_pay1 Ideal _ := rfl
/-- Region 3's stored value is the same function as region 1's. -/
theorem k3_eq : @k3_pay1 Ideal _ = @k1_pay1 Ideal _ := rfl

/-- Region 1's stored block at row `p`, column `q`. -/
theorem pay1_at (x0 x1 : Vec Ideal S5000x64 .f32) (x2 : Vec Ideal S64x64 .f32) (x3 : Vec Ideal S1x64 .f32)
    (p : Fin 5000) (q : Fin 64) :
    k1_pay1 (F := Ideal) x0 x1 x2 x3 (ix2 p q)
      = max ((∑ k : Fin 64, (x0 (ix2 p k) + x1 (ix2 p k)) * x2 (ix2 k q)) + x3 (ix2 (0 : Fin 1) q)) 0 :=
  pay_at x0 x1 x2 x3 p q

/-- Region 2's stored block at row `p`, column `q`. -/
theorem pay2_at (x0 x1 : Vec Ideal S5000x64 .f32) (x2 : Vec Ideal S64x64 .f32) (x3 : Vec Ideal S1x64 .f32)
    (p : Fin 5000) (q : Fin 64) :
    k2_pay1 (F := Ideal) x0 x1 x2 x3 (ix2 p q)
      = max ((∑ k : Fin 64, (x0 (ix2 p k) + x1 (ix2 p k)) * x2 (ix2 k q)) + x3 (ix2 (0 : Fin 1) q)) 0 := by
  rw [k2_eq]; exact pay_at x0 x1 x2 x3 p q

/-- Region 3's stored block at row `p`, column `q`. -/
theorem pay3_at (x0 x1 : Vec Ideal S5000x64 .f32) (x2 : Vec Ideal S64x64 .f32) (x3 : Vec Ideal S1x64 .f32)
    (p : Fin 5000) (q : Fin 64) :
    k3_pay1 (F := Ideal) x0 x1 x2 x3 (ix2 p q)
      = max ((∑ k : Fin 64, (x0 (ix2 p k) + x1 (ix2 p k)) * x2 (ix2 k q)) + x3 (ix2 (0 : Fin 1) q)) 0 := by
  rw [k3_eq]; exact pay_at x0 x1 x2 x3 p q

end Cert.KernelIdeal.LayerBody

end
-- ==== Proof.Region1.lean ====
import proofs.«426346_j35716948034358_1_alg».proof.Proof.Gen.KernelIdeal.Frame
import proofs.«426346_j35716948034358_1_alg».proof.Proof.Spec
import proofs.«426346_j35716948034358_1_alg».proof.Proof.LayerBody
import Idealize.ShloMosaic.Lib.Pipeline.Value

set_option maxRecDepth 16384

noncomputable section

open Idealize.ShloMosaic Idealize.ShloMosaic.TcCoe Idealize.SL.Sem
open Idealize.ShloMosaic.ValueIdx
open Cert.KernelIdeal Cert.KernelIdeal.Gen

namespace Cert.KernelIdeal.RegionValue

variable (V : (c : Dev nD) → (b : Ref sig .tc) → Buf (Elt Ideal) ((c : Thread nD τ).loc b))

/-- Region 1's index maps, decided over its 20 points: the two row-blocked inputs and the output sit at block row
    `t`, block column 0; the matrix and the bias are their whole arrays (block 0, 0). -/
theorem layer_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first input's block at point `t` is rows `5000 t … 5000 t + 4999` of its array. -/
theorem layer_blk1_0 (c : Dev nD) (t : Fin cfg1.N) (p : Fin 5000) (k : Fin 64) (r : Fin 100000)
    (hr : r.val = t.val * 5000 + p.val) :
    (iblk1 V c 0 t : Vec Ideal S5000x64 .f32) (ix2 p k) = (V c main_v5 : S100000x64.Idx → Elt Ideal .f32) (ix2 r k) := by
  obtain ⟨e0, e1, -⟩ := layer_idx1 t
  show V c main_v5 (((cfg1.win 0).blk t).view.emb (ix2 p k)) = V c main_v5 (ix2 r k)
  refine congrArg (V c main_v5) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- The second input's block at point `t` is the same rows of its array. -/
theorem layer_blk1_1 (c : Dev nD) (t : Fin cfg1.N) (p : Fin 5000) (k : Fin 64) (r : Fin 100000)
    (hr : r.val = t.val * 5000 + p.val) :
    (iblk1 V c 1 t : Vec Ideal S5000x64 .f32) (ix2 p k) = (V c main_v9 : S100000x64.Idx → Elt Ideal .f32) (ix2 r k) := by
  obtain ⟨-, -, e0, e1, -⟩ := layer_idx1 t
  show V c main_v9 (((cfg1.win 1).blk t).view.emb (ix2 p k)) = V c main_v9 (ix2 r k)
  refine congrArg (V c main_v9) (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- The matrix's block at every point is the whole matrix. -/
theorem layer_blk1_2 (c : Dev nD) (t : Fin cfg1.N) (k q : Fin 64) :
    (iblk1 V c 2 t : Vec Ideal S64x64 .f32) (ix2 k q) = (V c main_v11 : S64x64.Idx → Elt Ideal .f32) (ix2 k q) := by
  obtain ⟨-, -, -, -, e0, e1, -⟩ := layer_idx1 t
  show V c main_v11 (((cfg1.win 2).blk t).view.emb (ix2 k q)) = V c main_v11 (ix2 k q)
  refine congrArg (V c main_v11) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The bias's block at every point is the whole one-row bias. -/
theorem layer_blk1_3 (c : Dev nD) (t : Fin cfg1.N) (z : Fin 1) (q : Fin 64) :
    (iblk1 V c 3 t : Vec Ideal S1x64 .f32) (ix2 z q) = (V c main_v14 : S1x64.Idx → Elt Ideal .f32) (ix2 z q) := by
  obtain ⟨-, -, -, -, -, -, e0, e1, -⟩ := layer_idx1 t
  show V c main_v14 (((cfg1.win 3).blk t).view.emb (ix2 z q)) = V c main_v14 (ix2 z q)
  refine congrArg (V c main_v14) (funext fun a => Fin.ext ?_)
  match a with
  | ⟨0, _⟩ => show win1_3.index t (0 : Fin 2) * 1 + 1 * z.val = z.val; omega
  | ⟨1, _⟩ => show win1_3.index t (1 : Fin 2) * 64 + 1 * q.val = q.val; omega

/-- What point `t` writes back is block `t` of the layer of the arrays the region found. -/
theorem layer_flushed1 (c : Dev nD) (t : Fin cfg1.N) :
    (dat1 (F := Ideal) V c).flushed 4 t
      = ((cfg1.win 4).blk t).view.read (Elt Ideal) (Cert.Spec.layer (V c main_v5) (V c main_v9) (V c main_v11) (V c main_v14)) := by
  show (cfg1.win 4).cut (grid1.coords t) ((dat1 (F := Ideal) V c).after 4 t) = _
  rw [after1_4]
  unfold out1_4
  rw [View.canon_unit_zero LayerBody.hz]
  simp only [View.ld_unit_zero (S := S5000x64) LayerBody.hz, View.ld_unit_zero (S := S64x64) LayerBody.hz, View.ld_unit_zero (S := S1x64) LayerBody.hz]
  obtain ⟨-, -, -, -, -, -, -, -, e0, e1⟩ := layer_idx1 t
  have ht : t.val < 20 := t.isLt
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (ix2 p q)
    = Cert.Spec.layer (V c main_v5) (V c main_v9) (V c main_v11) (V c main_v14) (((cfg1.win 4).blk t).view.emb (ix2 p q))
  have hp : p.val < 5000 := p.isLt
  rw [LayerBody.pay1_at,
    LayerBody.layer_at _ _ _ _ (((cfg1.win 4).blk t).view.emb (ix2 p q)) ⟨t.val * 5000 + p.val, by omega⟩ q
      (by show win1_4.index t (0 : Fin 2) * 5000 + 1 * p.val = t.val * 5000 + p.val; omega)
      (by show win1_4.index t (1 : Fin 2) * 64 + 1 * q.val = q.val; omega)]
  rw [layer_blk1_3 V c t 0 q]
  refine congrArg (fun s => max (s + _) 0) (Finset.sum_congr rfl fun k _ => ?_)
  rw [layer_blk1_0 V c t p k ⟨t.val * 5000 + p.val, by omega⟩ rfl, layer_blk1_1 V c t p k ⟨t.val * 5000 + p.val, by omega⟩ rfl,
    layer_blk1_2 V c t k q]

/-- An index of the output array is in point `t`'s block iff each coordinate is in the block's range on its axis. -/
theorem layer_mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v15).slice (win1_4.rect t)).set ↔ _
  rw [View.set_slice_whole, Rect.mem_set_unit]
  exact Iff.rfl

/-- Every index of the output array is in some point's block: row `r` is in block `r / 5000`, and a block holds all
    64 columns. -/
theorem layer_cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, e0, e1⟩ := layer_idx1 t
  refine ⟨t, flush1_4 t, ?_⟩
  rw [layer_mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After region 1 its output array is the dense half of a layer of the arrays the region found. -/
theorem final1 (c : Dev nD) :
    (dat1 (F := Ideal) V c).arrAt 4 cfg1.N = Cert.Spec.layer (V c main_v5) (V c main_v9) (V c main_v11) (V c main_v14) :=
  (dat1 (F := Ideal) V c).arrAt_eq_of_cover 4 (Cert.Spec.layer (V c main_v5) (V c main_v9) (V c main_v11) (V c main_v14))
    (fun t _ => layer_flushed1 V c t) layer_cover1

end Cert.KernelIdeal.RegionValue

end
-- ==== Proof.KernelLayer0.lean ====
/-
  Layer 0 of the idealized kernel: the array contents through the host operations before region 1, and
  region 1's result.

  The stretch gathers the previous rows at the edges' sources, sums them at the destinations, and cuts
  the layer's matrix and bias row out of the stacked weights; it writes none of the arrays it reads and none
  a later stretch reads. Region 1 then leaves the layer's dense half of those arrays, which, the sources being
  in range, is one whole layer of Proof/Spec.lean of the previous rows and the launch arrays.
-/
import proofs.«426346_j35716948034358_1_alg».proof.Proof.KernelHost
import proofs.«426346_j35716948034358_1_alg».proof.Proof.Region1

set_option maxRecDepth 16384

noncomputable section

open Idealize.ShloMosaic Idealize.ShloMosaic.TcCoe Idealize.SL.Sem Idealize.ShloMosaic.StableHlo
open Cert.KernelIdeal Cert.KernelIdeal.Gen Cert.KernelIdeal.RegionValue Cert.Spec Cert.TakeFill

namespace Cert.KernelIdeal.NetValue

-- the contents the stretch starts from are a long fold: nothing here opens it
attribute [local irreducible] W2

section AnyFloat

variable {F : FTy → Type} [FloatOps F] (m : (ℓ : Loc nD τ sig) → Buf (Elt F) ℓ) (ρ : Dev nD → PrngReg)

/-- The first half of the stretch gathers, with fill, the rows `h` at the node numbers `s`: stated at any float
    instance and over the two arrays it reads, so that the comparison is between two short terms. -/
theorem take_of_W3 (c : Dev nD) (h : FVec F S100000x64 .f32) (s : IVec S1600000 32)
    (eh : W2 m ρ c (Proc.devRef .tc main_v5) = (TRef.of (sig := sig) (T := ⟨S100000x64, .f32⟩) main_v5).toBuf h)
    (es : W2 m ρ c (Proc.devRef .tc main_v1) = (TRef.of (sig := sig) (T := ⟨S1600000, .i32⟩) main_v1).toBuf s) :
    W3 m ρ c (Proc.devRef .tc main_v6) = takeRaw h s := by
  unfold W3; after_results_simp
  rw [eh, es]
  simp only [ofBuf_toBuf]
  refine (cast_id _ _).trans ?_
  unfold takeRaw wrapRaw
  rfl

/-- It leaves the destinations in place. -/
theorem dst_of_W3 (c : Dev nD) : W3 m ρ c (Proc.devRef .tc main_v3) = W2 m ρ c (Proc.devRef .tc main_v3) := by
  unfold W3; after_results_simp <;> rfl

/-- The second half sums what was gathered at the destination rows. -/
theorem agg_step_W4 (c : Dev nD) :
    W4 m ρ c (Proc.devRef .tc main_v9)
      = Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 (W3 m ρ c (Proc.devRef .tc main_v3)))
          (W3 m ρ c (Proc.devRef .tc main_v6)) := by
  unfold W4; after_results_simp <;> rfl

set_option maxHeartbeats 4000000 in
/-- The whole stretch sums, at the destination rows `d`, the rows of `h` gathered with fill at the sources `s`. -/
theorem agg_of_W4 (c : Dev nD) (h : FVec F S100000x64 .f32) (s d : IVec S1600000 32)
    (eh : W2 m ρ c (Proc.devRef .tc main_v5) = (TRef.of (sig := sig) (T := ⟨S100000x64, .f32⟩) main_v5).toBuf h)
    (es : W2 m ρ c (Proc.devRef .tc main_v1) = (TRef.of (sig := sig) (T := ⟨S1600000, .i32⟩) main_v1).toBuf s)
    (ed : W2 m ρ c (Proc.devRef .tc main_v3) = d) :
    W4 m ρ c (Proc.devRef .tc main_v9) = aggRaw h s d :=
  (agg_step_W4 m ρ c).trans
    (congrArg₂ (fun (d' : IVec S1600000 32) (u : FVec F S1600000x64 .f32) =>
        Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 d') u)
      ((dst_of_W3 m ρ c).trans ed) (take_of_W3 m ρ c h s eh es))

end AnyFloat

variable (m : (ℓ : Loc nD τ sig) → Buf (Elt Ideal) ℓ) (ρ : Dev nD → PrngReg)

/-! ## What the stretch reads is as launched -/

/-- The previous region wrote none of the sources, the destinations, the stacked weights, the classifier's. -/
theorem src_W2 (c : Dev nD) : W2 m ρ c (Proc.devRef .tc main_v1) = edgeRow 0 (a1 m c) (by decide) :=
  (W2_of_ne m ρ c main_v1 (by decide)).trans (src_W1 m ρ c)
theorem dst_W2 (c : Dev nD) : W2 m ρ c (Proc.devRef .tc main_v3) = edgeRow 1 (a1 m c) (by decide) :=
  (W2_of_ne m ρ c main_v3 (by decide)).trans (dst_W1 m ρ c)
theorem ws_W2 (c : Dev nD) : W2 m ρ c (Proc.devRef .tc main_arg4) = a4 m c :=
  (W2_of_ne m ρ c main_arg4 (by decide)).trans (ws_W1 m ρ c)
theorem bs_W2 (c : Dev nD) : W2 m ρ c (Proc.devRef .tc main_arg5) = a5 m c :=
  (W2_of_ne m ρ c main_arg5 (by decide)).trans (bs_W1 m ρ c)
theorem wcls_W2 (c : Dev nD) : W2 m ρ c (Proc.devRef .tc main_arg6) = a6 m c :=
  (W2_of_ne m ρ c main_arg6 (by decide)).trans (wcls_W1 m ρ c)
theorem bcls_W2 (c : Dev nD) : W2 m ρ c (Proc.devRef .tc main_arg7) = a7 m c :=
  (W2_of_ne m ρ c main_arg7 (by decide)).trans (bcls_W1 m ρ c)

/-! ## The stretch -/

/-- It leaves the previous rows in place … -/
theorem hin_W4 (c : Dev nD) : W4 m ρ c (Proc.devRef .tc main_v5) = W2 m ρ c (Proc.devRef .tc main_v5) := by
  unfold W4 W3; after_results_simp <;> rfl
/-- … sums the gathered source rows at the destination rows … -/
theorem agg_W4 (c : Dev nD) :
    W4 m ρ c (Proc.devRef .tc main_v9)
      = aggRaw (F := Ideal) (W2 m ρ c (Proc.devRef .tc main_v5)) (W2 m ρ c (Proc.devRef .tc main_v1)) (W2 m ρ c (Proc.devRef .tc main_v3)) :=
  agg_of_W4 m ρ c _ _ _ (cast_id _ _).symm (cast_id _ _).symm rfl
/-- … and cuts the layer's matrix and bias row out of the stacks. -/
theorem mat_W4 (c : Dev nD) : W4 m ρ c (Proc.devRef .tc main_v11) = wOf 0 (W2 m ρ c (Proc.devRef .tc main_arg4)) (by decide) := by
  unfold W4 W3; after_results_simp <;> rfl
theorem row_W4 (c : Dev nD) : W4 m ρ c (Proc.devRef .tc main_v14) = bOf 0 (W2 m ρ c (Proc.devRef .tc main_arg5)) (by decide) := by
  unfold W4 W3; after_results_simp <;> rfl

/-- It writes none of the arrays later stretches read. -/
theorem src_W4 (c : Dev nD) : W4 m ρ c (Proc.devRef .tc main_v1) = edgeRow 0 (a1 m c) (by decide) :=
  (by unfold W4 W3; after_results_simp <;> rfl : W4 m ρ c (Proc.devRef .tc main_v1) = W2 m ρ c (Proc.devRef .tc main_v1)).trans (src_W2 m ρ c)
theorem dst_W4 (c : Dev nD) : W4 m ρ c (Proc.devRef .tc main_v3) = edgeRow 1 (a1 m c) (by decide) :=
  (by unfold W4 W3; after_results_simp <;> rfl : W4 m ρ c (Proc.devRef .tc main_v3) = W2 m ρ c (Proc.devRef .tc main_v3)).trans (dst_W2 m ρ c)
theorem ws_W4 (c : Dev nD) : W4 m ρ c (Proc.devRef .tc main_arg4) = a4 m c :=
  (by unfold W4 W3; after_results_simp <;> rfl : W4 m ρ c (Proc.devRef .tc main_arg4) = W2 m ρ c (Proc.devRef .tc main_arg4)).trans (ws_W2 m ρ c)
theorem bs_W4 (c : Dev nD) : W4 m ρ c (Proc.devRef .tc main_arg5) = a5 m c :=
  (by unfold W4 W3; after_results_simp <;> rfl : W4 m ρ c (Proc.devRef .tc main_arg5) = W2 m ρ c (Proc.devRef .tc main_arg5)).trans (bs_W2 m ρ c)
theorem wcls_W4 (c : Dev nD) : W4 m ρ c (Proc.devRef .tc main_arg6) = a6 m c :=
  (by unfold W4 W3; after_results_simp <;> rfl : W4 m ρ c (Proc.devRef .tc main_arg6) = W2 m ρ c (Proc.devRef .tc main_arg6)).trans (wcls_W2 m ρ c)
theorem bcls_W4 (c : Dev nD) : W4 m ρ c (Proc.devRef .tc main_arg7) = a7 m c :=
  (by unfold W4 W3; after_results_simp <;> rfl : W4 m ρ c (Proc.devRef .tc main_arg7) = W2 m ρ c (Proc.devRef .tc main_arg7)).trans (bcls_W2 m ρ c)

/-! ## The region -/

/-- After region 1 its output array is layer 0 of the previous rows. -/
theorem rows_W5 (c : Dev nD) (hs : InRange (edgeRow 0 (a1 m c) (by decide))) :
    W5 m ρ c (Proc.devRef .tc main_v15)
      = step 0 (W2 m ρ c (Proc.devRef .tc main_v5)) (a1 m c) (a4 m c) (a5 m c) (by decide) (by decide) := by
  refine (W5_arr m ρ c 4).trans ((final1 (V4 m ρ) c).trans ?_)
  show layer (W4 m ρ c (Proc.devRef .tc main_v5)) (W4 m ρ c (Proc.devRef .tc main_v9)) (W4 m ρ c (Proc.devRef .tc main_v11)) (W4 m ρ c (Proc.devRef .tc main_v14)) = _
  rw [hin_W4, agg_W4, mat_W4, row_W4, src_W2, dst_W2, ws_W2, bs_W2, aggRaw_eq _ _ hs]
  rfl

end Cert.KernelIdeal.NetValue

end
-- ==== Proof.Region2.lean ====
import proofs.«426346_j35716948034358_1_alg».proof.Proof.Gen.KernelIdeal.Frame
import proofs.«426346_j35716948034358_1_alg».proof.Proof.Spec
import proofs.«426346_j35716948034358_1_alg».proof.Proof.LayerBody
import Idealize.ShloMosaic.Lib.Pipeline.Value

set_option maxRecDepth 16384

noncomputable section

open Idealize.ShloMosaic Idealize.ShloMosaic.TcCoe Idealize.SL.Sem
open Idealize.ShloMosaic.ValueIdx
open Cert.KernelIdeal Cert.KernelIdeal.Gen

namespace Cert.KernelIdeal.RegionValue

variable (V : (c : Dev nD) → (b : Ref sig .tc) → Buf (Elt Ideal) ((c : Thread nD τ).loc b))

/-- Region 2's index maps, decided over its 20 points: the two row-blocked inputs and the output sit at block row
    `t`, block column 0; the matrix and the bias are their whole arrays (block 0, 0). -/
theorem layer_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The first input's block at point `t` is rows `5000 t … 5000 t + 4999` of its array. -/
theorem layer_blk2_0 (c : Dev nD) (t : Fin cfg2.N) (p : Fin 5000) (k : Fin 64) (r : Fin 100000)
    (hr : r.val = t.val * 5000 + p.val) :
    (iblk2 V c 0 t : Vec Ideal S5000x64 .f32) (ix2 p k) = (V c main_v15 : S100000x64.Idx → Elt Ideal .f32) (ix2 r k) := by
  obtain ⟨e0, e1, -⟩ := layer_idx2 t
  show V c main_v15 (((cfg2.win 0).blk t).view.emb (ix2 p k)) = V c main_v15 (ix2 r k)
  refine congrArg (V c main_v15) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The second input's block at point `t` is the same rows of its array. -/
theorem layer_blk2_1 (c : Dev nD) (t : Fin cfg2.N) (p : Fin 5000) (k : Fin 64) (r : Fin 100000)
    (hr : r.val = t.val * 5000 + p.val) :
    (iblk2 V c 1 t : Vec Ideal S5000x64 .f32) (ix2 p k) = (V c main_v19 : S100000x64.Idx → Elt Ideal .f32) (ix2 r k) := by
  obtain ⟨-, -, e0, e1, -⟩ := layer_idx2 t
  show V c main_v19 (((cfg2.win 1).blk t).view.emb (ix2 p k)) = V c main_v19 (ix2 r k)
  refine congrArg (V c main_v19) (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The matrix's block at every point is the whole matrix. -/
theorem layer_blk2_2 (c : Dev nD) (t : Fin cfg2.N) (k q : Fin 64) :
    (iblk2 V c 2 t : Vec Ideal S64x64 .f32) (ix2 k q) = (V c main_v21 : S64x64.Idx → Elt Ideal .f32) (ix2 k q) := by
  obtain ⟨-, -, -, -, e0, e1, -⟩ := layer_idx2 t
  show V c main_v21 (((cfg2.win 2).blk t).view.emb (ix2 k q)) = V c main_v21 (ix2 k q)
  refine congrArg (V c main_v21) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The bias's block at every point is the whole one-row bias. -/
theorem layer_blk2_3 (c : Dev nD) (t : Fin cfg2.N) (z : Fin 1) (q : Fin 64) :
    (iblk2 V c 3 t : Vec Ideal S1x64 .f32) (ix2 z q) = (V c main_v24 : S1x64.Idx → Elt Ideal .f32) (ix2 z q) := by
  obtain ⟨-, -, -, -, -, -, e0, e1, -⟩ := layer_idx2 t
  show V c main_v24 (((cfg2.win 3).blk t).view.emb (ix2 z q)) = V c main_v24 (ix2 z q)
  refine congrArg (V c main_v24) (funext fun a => Fin.ext ?_)
  match a with
  | ⟨0, _⟩ => show win2_3.index t (0 : Fin 2) * 1 + 1 * z.val = z.val; omega
  | ⟨1, _⟩ => show win2_3.index t (1 : Fin 2) * 64 + 1 * q.val = q.val; omega

/-- What point `t` writes back is block `t` of the layer of the arrays the region found. -/
theorem layer_flushed2 (c : Dev nD) (t : Fin cfg2.N) :
    (dat2 (F := Ideal) V c).flushed 4 t
      = ((cfg2.win 4).blk t).view.read (Elt Ideal) (Cert.Spec.layer (V c main_v15) (V c main_v19) (V c main_v21) (V c main_v24)) := by
  show (cfg2.win 4).cut (grid2.coords t) ((dat2 (F := Ideal) V c).after 4 t) = _
  rw [after2_4]
  unfold out2_4
  rw [View.canon_unit_zero LayerBody.hz]
  simp only [View.ld_unit_zero (S := S5000x64) LayerBody.hz, View.ld_unit_zero (S := S64x64) LayerBody.hz, View.ld_unit_zero (S := S1x64) LayerBody.hz]
  obtain ⟨-, -, -, -, -, -, -, -, e0, e1⟩ := layer_idx2 t
  have ht : t.val < 20 := t.isLt
  refine funext fun (j : S5000x64.Idx) => ?_
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (iblk2 V c 3 t) (ix2 p q)
    = Cert.Spec.layer (V c main_v15) (V c main_v19) (V c main_v21) (V c main_v24) (((cfg2.win 4).blk t).view.emb (ix2 p q))
  have hp : p.val < 5000 := p.isLt
  rw [LayerBody.pay2_at,
    LayerBody.layer_at _ _ _ _ (((cfg2.win 4).blk t).view.emb (ix2 p q)) ⟨t.val * 5000 + p.val, by omega⟩ q
      (by show win2_4.index t (0 : Fin 2) * 5000 + 1 * p.val = t.val * 5000 + p.val; omega)
      (by show win2_4.index t (1 : Fin 2) * 64 + 1 * q.val = q.val; omega)]
  rw [layer_blk2_3 V c t 0 q]
  refine congrArg (fun s => max (s + _) 0) (Finset.sum_congr rfl fun k _ => ?_)
  rw [layer_blk2_0 V c t p k ⟨t.val * 5000 + p.val, by omega⟩ rfl, layer_blk2_1 V c t p k ⟨t.val * 5000 + p.val, by omega⟩ rfl,
    layer_blk2_2 V c t k q]

/-- An index of the output array is in point `t`'s block iff each coordinate is in the block's range on its axis. -/
theorem layer_mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v25).slice (win2_4.rect t)).set ↔ _
  rw [View.set_slice_whole, Rect.mem_set_unit]
  exact Iff.rfl

/-- Every index of the output array is in some point's block: row `r` is in block `r / 5000`, and a block holds all
    64 columns. -/
theorem layer_cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, e0, e1⟩ := layer_idx2 t
  refine ⟨t, flush2_4 t, ?_⟩
  rw [layer_mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- After region 2 its output array is the dense half of a layer of the arrays the region found. -/
theorem final2 (c : Dev nD) :
    (dat2 (F := Ideal) V c).arrAt 4 cfg2.N = Cert.Spec.layer (V c main_v15) (V c main_v19) (V c main_v21) (V c main_v24) :=
  (dat2 (F := Ideal) V c).arrAt_eq_of_cover 4 (Cert.Spec.layer (V c main_v15) (V c main_v19) (V c main_v21) (V c main_v24))
    (fun t _ => layer_flushed2 V c t) layer_cover2

end Cert.KernelIdeal.RegionValue

end
-- ==== Proof.KernelLayer1.lean ====
/-
  Layer 1 of the idealized kernel: the array contents through the host operations before region 2, and
  region 2's result.

  The stretch gathers the previous rows at the edges' sources, sums them at the destinations, and cuts
  the layer's matrix and bias row out of the stacked weights; it writes none of the arrays it reads and none
  a later stretch reads. Region 2 then leaves the layer's dense half of those arrays, which, the sources being
  in range, is one whole layer of Proof/Spec.lean of the previous rows and the launch arrays.
-/
import proofs.«426346_j35716948034358_1_alg».proof.Proof.KernelLayer0
import proofs.«426346_j35716948034358_1_alg».proof.Proof.Region2

set_option maxRecDepth 16384

noncomputable section

open Idealize.ShloMosaic Idealize.ShloMosaic.TcCoe Idealize.SL.Sem Idealize.ShloMosaic.StableHlo
open Cert.KernelIdeal Cert.KernelIdeal.Gen Cert.KernelIdeal.RegionValue Cert.Spec Cert.TakeFill

namespace Cert.KernelIdeal.NetValue

-- the contents the stretch starts from are a long fold: nothing here opens it
attribute [local irreducible] W5

section AnyFloat

variable {F : FTy → Type} [FloatOps F] (m : (ℓ : Loc nD τ sig) → Buf (Elt F) ℓ) (ρ : Dev nD → PrngReg)

/-- The first half of the stretch gathers, with fill, the rows `h` at the node numbers `s`: stated at any float
    instance and over the two arrays it reads, so that the comparison is between two short terms. -/
theorem take_of_W6 (c : Dev nD) (h : FVec F S100000x64 .f32) (s : IVec S1600000 32)
    (eh : W5 m ρ c (Proc.devRef .tc main_v15) = (TRef.of (sig := sig) (T := ⟨S100000x64, .f32⟩) main_v15).toBuf h)
    (es : W5 m ρ c (Proc.devRef .tc main_v1) = (TRef.of (sig := sig) (T := ⟨S1600000, .i32⟩) main_v1).toBuf s) :
    W6 m ρ c (Proc.devRef .tc main_v16) = takeRaw h s := by
  unfold W6; after_results_simp
  rw [eh, es]
  simp only [ofBuf_toBuf]
  refine (cast_id _ _).trans ?_
  unfold takeRaw wrapRaw
  rfl

/-- It leaves the destinations in place. -/
theorem dst_of_W6 (c : Dev nD) : W6 m ρ c (Proc.devRef .tc main_v3) = W5 m ρ c (Proc.devRef .tc main_v3) := by
  unfold W6; after_results_simp <;> rfl

/-- The second half sums what was gathered at the destination rows. -/
theorem agg_step_W7 (c : Dev nD) :
    W7 m ρ c (Proc.devRef .tc main_v19)
      = Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 (W6 m ρ c (Proc.devRef .tc main_v3)))
          (W6 m ρ c (Proc.devRef .tc main_v16)) := by
  unfold W7; after_results_simp <;> rfl

set_option maxHeartbeats 4000000 in
/-- The whole stretch sums, at the destination rows `d`, the rows of `h` gathered with fill at the sources `s`. -/
theorem agg_of_W7 (c : Dev nD) (h : FVec F S100000x64 .f32) (s d : IVec S1600000 32)
    (eh : W5 m ρ c (Proc.devRef .tc main_v15) = (TRef.of (sig := sig) (T := ⟨S100000x64, .f32⟩) main_v15).toBuf h)
    (es : W5 m ρ c (Proc.devRef .tc main_v1) = (TRef.of (sig := sig) (T := ⟨S1600000, .i32⟩) main_v1).toBuf s)
    (ed : W5 m ρ c (Proc.devRef .tc main_v3) = d) :
    W7 m ρ c (Proc.devRef .tc main_v19) = aggRaw h s d :=
  (agg_step_W7 m ρ c).trans
    (congrArg₂ (fun (d' : IVec S1600000 32) (u : FVec F S1600000x64 .f32) =>
        Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 d') u)
      ((dst_of_W6 m ρ c).trans ed) (take_of_W6 m ρ c h s eh es))

end AnyFloat

variable (m : (ℓ : Loc nD τ sig) → Buf (Elt Ideal) ℓ) (ρ : Dev nD → PrngReg)

/-! ## What the stretch reads is as launched -/

/-- The previous region wrote none of the sources, the destinations, the stacked weights, the classifier's. -/
theorem src_W5 (c : Dev nD) : W5 m ρ c (Proc.devRef .tc main_v1) = edgeRow 0 (a1 m c) (by decide) :=
  (W5_of_ne m ρ c main_v1 (by decide)).trans (src_W4 m ρ c)
theorem dst_W5 (c : Dev nD) : W5 m ρ c (Proc.devRef .tc main_v3) = edgeRow 1 (a1 m c) (by decide) :=
  (W5_of_ne m ρ c main_v3 (by decide)).trans (dst_W4 m ρ c)
theorem ws_W5 (c : Dev nD) : W5 m ρ c (Proc.devRef .tc main_arg4) = a4 m c :=
  (W5_of_ne m ρ c main_arg4 (by decide)).trans (ws_W4 m ρ c)
theorem bs_W5 (c : Dev nD) : W5 m ρ c (Proc.devRef .tc main_arg5) = a5 m c :=
  (W5_of_ne m ρ c main_arg5 (by decide)).trans (bs_W4 m ρ c)
theorem wcls_W5 (c : Dev nD) : W5 m ρ c (Proc.devRef .tc main_arg6) = a6 m c :=
  (W5_of_ne m ρ c main_arg6 (by decide)).trans (wcls_W4 m ρ c)
theorem bcls_W5 (c : Dev nD) : W5 m ρ c (Proc.devRef .tc main_arg7) = a7 m c :=
  (W5_of_ne m ρ c main_arg7 (by decide)).trans (bcls_W4 m ρ c)

/-! ## The stretch -/

/-- It leaves the previous rows in place … -/
theorem hin_W7 (c : Dev nD) : W7 m ρ c (Proc.devRef .tc main_v15) = W5 m ρ c (Proc.devRef .tc main_v15) := by
  unfold W7 W6; after_results_simp <;> rfl
/-- … sums the gathered source rows at the destination rows … -/
theorem agg_W7 (c : Dev nD) :
    W7 m ρ c (Proc.devRef .tc main_v19)
      = aggRaw (F := Ideal) (W5 m ρ c (Proc.devRef .tc main_v15)) (W5 m ρ c (Proc.devRef .tc main_v1)) (W5 m ρ c (Proc.devRef .tc main_v3)) :=
  agg_of_W7 m ρ c _ _ _ (cast_id _ _).symm (cast_id _ _).symm rfl
/-- … and cuts the layer's matrix and bias row out of the stacks. -/
theorem mat_W7 (c : Dev nD) : W7 m ρ c (Proc.devRef .tc main_v21) = wOf 1 (W5 m ρ c (Proc.devRef .tc main_arg4)) (by decide) := by
  unfold W7 W6; after_results_simp <;> rfl
theorem row_W7 (c : Dev nD) : W7 m ρ c (Proc.devRef .tc main_v24) = bOf 1 (W5 m ρ c (Proc.devRef .tc main_arg5)) (by decide) := by
  unfold W7 W6; after_results_simp <;> rfl

/-- It writes none of the arrays later stretches read. -/
theorem src_W7 (c : Dev nD) : W7 m ρ c (Proc.devRef .tc main_v1) = edgeRow 0 (a1 m c) (by decide) :=
  (by unfold W7 W6; after_results_simp <;> rfl : W7 m ρ c (Proc.devRef .tc main_v1) = W5 m ρ c (Proc.devRef .tc main_v1)).trans (src_W5 m ρ c)
theorem dst_W7 (c : Dev nD) : W7 m ρ c (Proc.devRef .tc main_v3) = edgeRow 1 (a1 m c) (by decide) :=
  (by unfold W7 W6; after_results_simp <;> rfl : W7 m ρ c (Proc.devRef .tc main_v3) = W5 m ρ c (Proc.devRef .tc main_v3)).trans (dst_W5 m ρ c)
theorem ws_W7 (c : Dev nD) : W7 m ρ c (Proc.devRef .tc main_arg4) = a4 m c :=
  (by unfold W7 W6; after_results_simp <;> rfl : W7 m ρ c (Proc.devRef .tc main_arg4) = W5 m ρ c (Proc.devRef .tc main_arg4)).trans (ws_W5 m ρ c)
theorem bs_W7 (c : Dev nD) : W7 m ρ c (Proc.devRef .tc main_arg5) = a5 m c :=
  (by unfold W7 W6; after_results_simp <;> rfl : W7 m ρ c (Proc.devRef .tc main_arg5) = W5 m ρ c (Proc.devRef .tc main_arg5)).trans (bs_W5 m ρ c)
theorem wcls_W7 (c : Dev nD) : W7 m ρ c (Proc.devRef .tc main_arg6) = a6 m c :=
  (by unfold W7 W6; after_results_simp <;> rfl : W7 m ρ c (Proc.devRef .tc main_arg6) = W5 m ρ c (Proc.devRef .tc main_arg6)).trans (wcls_W5 m ρ c)
theorem bcls_W7 (c : Dev nD) : W7 m ρ c (Proc.devRef .tc main_arg7) = a7 m c :=
  (by unfold W7 W6; after_results_simp <;> rfl : W7 m ρ c (Proc.devRef .tc main_arg7) = W5 m ρ c (Proc.devRef .tc main_arg7)).trans (bcls_W5 m ρ c)

/-! ## The region -/

/-- After region 2 its output array is layer 1 of the previous rows. -/
theorem rows_W8 (c : Dev nD) (hs : InRange (edgeRow 0 (a1 m c) (by decide))) :
    W8 m ρ c (Proc.devRef .tc main_v25)
      = step 1 (W5 m ρ c (Proc.devRef .tc main_v15)) (a1 m c) (a4 m c) (a5 m c) (by decide) (by decide) := by
  refine (W8_arr m ρ c 4).trans ((final2 (V7 m ρ) c).trans ?_)
  show layer (W7 m ρ c (Proc.devRef .tc main_v15)) (W7 m ρ c (Proc.devRef .tc main_v19)) (W7 m ρ c (Proc.devRef .tc main_v21)) (W7 m ρ c (Proc.devRef .tc main_v24)) = _
  rw [hin_W7, agg_W7, mat_W7, row_W7, src_W5, dst_W5, ws_W5, bs_W5, aggRaw_eq _ _ hs]
  rfl

end Cert.KernelIdeal.NetValue

end
-- ==== Proof.Region3.lean ====
import proofs.«426346_j35716948034358_1_alg».proof.Proof.Gen.KernelIdeal.Frame
import proofs.«426346_j35716948034358_1_alg».proof.Proof.Spec
import proofs.«426346_j35716948034358_1_alg».proof.Proof.LayerBody
import Idealize.ShloMosaic.Lib.Pipeline.Value

set_option maxRecDepth 16384

noncomputable section

open Idealize.ShloMosaic Idealize.ShloMosaic.TcCoe Idealize.SL.Sem
open Idealize.ShloMosaic.ValueIdx
open Cert.KernelIdeal Cert.KernelIdeal.Gen

namespace Cert.KernelIdeal.RegionValue

variable (V : (c : Dev nD) → (b : Ref sig .tc) → Buf (Elt Ideal) ((c : Thread nD τ).loc b))

/-- Region 3's index maps, decided over its 20 points: the two row-blocked inputs and the output sit at block row
    `t`, block column 0; the matrix and the bias are their whole arrays (block 0, 0). -/
theorem layer_idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The first input's block at point `t` is rows `5000 t … 5000 t + 4999` of its array. -/
theorem layer_blk3_0 (c : Dev nD) (t : Fin cfg3.N) (p : Fin 5000) (k : Fin 64) (r : Fin 100000)
    (hr : r.val = t.val * 5000 + p.val) :
    (iblk3 V c 0 t : Vec Ideal S5000x64 .f32) (ix2 p k) = (V c main_v25 : S100000x64.Idx → Elt Ideal .f32) (ix2 r k) := by
  obtain ⟨e0, e1, -⟩ := layer_idx3 t
  show V c main_v25 (((cfg3.win 0).blk t).view.emb (ix2 p k)) = V c main_v25 (ix2 r k)
  refine congrArg (V c main_v25) (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- The second input's block at point `t` is the same rows of its array. -/
theorem layer_blk3_1 (c : Dev nD) (t : Fin cfg3.N) (p : Fin 5000) (k : Fin 64) (r : Fin 100000)
    (hr : r.val = t.val * 5000 + p.val) :
    (iblk3 V c 1 t : Vec Ideal S5000x64 .f32) (ix2 p k) = (V c main_v29 : S100000x64.Idx → Elt Ideal .f32) (ix2 r k) := by
  obtain ⟨-, -, e0, e1, -⟩ := layer_idx3 t
  show V c main_v29 (((cfg3.win 1).blk t).view.emb (ix2 p k)) = V c main_v29 (ix2 r k)
  refine congrArg (V c main_v29) (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- The matrix's block at every point is the whole matrix. -/
theorem layer_blk3_2 (c : Dev nD) (t : Fin cfg3.N) (k q : Fin 64) :
    (iblk3 V c 2 t : Vec Ideal S64x64 .f32) (ix2 k q) = (V c main_v31 : S64x64.Idx → Elt Ideal .f32) (ix2 k q) := by
  obtain ⟨-, -, -, -, e0, e1, -⟩ := layer_idx3 t
  show V c main_v31 (((cfg3.win 2).blk t).view.emb (ix2 k q)) = V c main_v31 (ix2 k q)
  refine congrArg (V c main_v31) (funext fun a => Fin.ext ?_)
  match a with
  | ⟨0, _⟩ => show win3_2.index t (0 : Fin 2) * 64 + 1 * k.val = k.val; omega
  | ⟨1, _⟩ => show win3_2.index t (1 : Fin 2) * 64 + 1 * q.val = q.val; omega

/-- The bias's block at every point is the whole one-row bias. -/
theorem layer_blk3_3 (c : Dev nD) (t : Fin cfg3.N) (z : Fin 1) (q : Fin 64) :
    (iblk3 V c 3 t : Vec Ideal S1x64 .f32) (ix2 z q) = (V c main_v34 : S1x64.Idx → Elt Ideal .f32) (ix2 z q) := by
  obtain ⟨-, -, -, -, -, -, e0, e1, -⟩ := layer_idx3 t
  show V c main_v34 (((cfg3.win 3).blk t).view.emb (ix2 z q)) = V c main_v34 (ix2 z q)
  refine congrArg (V c main_v34) (funext fun a => Fin.ext ?_)
  match a with
  | ⟨0, _⟩ => show win3_3.index t (0 : Fin 2) * 1 + 1 * z.val = z.val; omega
  | ⟨1, _⟩ => show win3_3.index t (1 : Fin 2) * 64 + 1 * q.val = q.val; omega

/-- What point `t` writes back is block `t` of the layer of the arrays the region found. -/
theorem layer_flushed3 (c : Dev nD) (t : Fin cfg3.N) :
    (dat3 (F := Ideal) V c).flushed 4 t
      = ((cfg3.win 4).blk t).view.read (Elt Ideal) (Cert.Spec.layer (V c main_v25) (V c main_v29) (V c main_v31) (V c main_v34)) := by
  show (cfg3.win 4).cut (grid3.coords t) ((dat3 (F := Ideal) V c).after 4 t) = _
  rw [after3_4]
  unfold out3_4
  rw [View.canon_unit_zero LayerBody.hz]
  simp only [View.ld_unit_zero (S := S5000x64) LayerBody.hz, View.ld_unit_zero (S := S64x64) LayerBody.hz, View.ld_unit_zero (S := S1x64) LayerBody.hz]
  obtain ⟨-, -, -, -, -, -, -, -, e0, e1⟩ := layer_idx3 t
  have ht : t.val < 20 := t.isLt
  refine funext fun (j : S5000x64.Idx) => ?_
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (iblk3 V c 3 t) (ix2 p q)
    = Cert.Spec.layer (V c main_v25) (V c main_v29) (V c main_v31) (V c main_v34) (((cfg3.win 4).blk t).view.emb (ix2 p q))
  have hp : p.val < 5000 := p.isLt
  rw [LayerBody.pay3_at,
    LayerBody.layer_at _ _ _ _ (((cfg3.win 4).blk t).view.emb (ix2 p q)) ⟨t.val * 5000 + p.val, by omega⟩ q
      (by show win3_4.index t (0 : Fin 2) * 5000 + 1 * p.val = t.val * 5000 + p.val; omega)
      (by show win3_4.index t (1 : Fin 2) * 64 + 1 * q.val = q.val; omega)]
  rw [layer_blk3_3 V c t 0 q]
  refine congrArg (fun s => max (s + _) 0) (Finset.sum_congr rfl fun k _ => ?_)
  rw [layer_blk3_0 V c t p k ⟨t.val * 5000 + p.val, by omega⟩ rfl, layer_blk3_1 V c t p k ⟨t.val * 5000 + p.val, by omega⟩ rfl,
    layer_blk3_2 V c t k q]

/-- An index of the output array is in point `t`'s block iff each coordinate is in the block's range on its axis. -/
theorem layer_mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v35).slice (win3_4.rect t)).set ↔ _
  rw [View.set_slice_whole, Rect.mem_set_unit]
  exact Iff.rfl

/-- Every index of the output array is in some point's block: row `r` is in block `r / 5000`, and a block holds all
    64 columns. -/
theorem layer_cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, -, -, -, -, e0, e1⟩ := layer_idx3 t
  refine ⟨t, flush3_4 t, ?_⟩
  rw [layer_mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- After region 3 its output array is the dense half of a layer of the arrays the region found. -/
theorem final3 (c : Dev nD) :
    (dat3 (F := Ideal) V c).arrAt 4 cfg3.N = Cert.Spec.layer (V c main_v25) (V c main_v29) (V c main_v31) (V c main_v34) :=
  (dat3 (F := Ideal) V c).arrAt_eq_of_cover 4 (Cert.Spec.layer (V c main_v25) (V c main_v29) (V c main_v31) (V c main_v34))
    (fun t _ => layer_flushed3 V c t) layer_cover3

end Cert.KernelIdeal.RegionValue

end
-- ==== Proof.KernelLayer2.lean ====
/-
  Layer 2 of the idealized kernel: the array contents through the host operations before region 3, and
  region 3's result.

  The stretch gathers the previous rows at the edges' sources, sums them at the destinations, and cuts
  the layer's matrix and bias row out of the stacked weights; it writes none of the arrays it reads and none
  a later stretch reads. Region 3 then leaves the layer's dense half of those arrays, which, the sources being
  in range, is one whole layer of Proof/Spec.lean of the previous rows and the launch arrays.
-/
import proofs.«426346_j35716948034358_1_alg».proof.Proof.KernelLayer1
import proofs.«426346_j35716948034358_1_alg».proof.Proof.Region3

set_option maxRecDepth 16384

noncomputable section

open Idealize.ShloMosaic Idealize.ShloMosaic.TcCoe Idealize.SL.Sem Idealize.ShloMosaic.StableHlo
open Cert.KernelIdeal Cert.KernelIdeal.Gen Cert.KernelIdeal.RegionValue Cert.Spec Cert.TakeFill

namespace Cert.KernelIdeal.NetValue

-- the contents the stretch starts from are a long fold: nothing here opens it
attribute [local irreducible] W8

section AnyFloat

variable {F : FTy → Type} [FloatOps F] (m : (ℓ : Loc nD τ sig) → Buf (Elt F) ℓ) (ρ : Dev nD → PrngReg)

/-- The first half of the stretch gathers, with fill, the rows `h` at the node numbers `s`: stated at any float
    instance and over the two arrays it reads, so that the comparison is between two short terms. -/
theorem take_of_W9 (c : Dev nD) (h : FVec F S100000x64 .f32) (s : IVec S1600000 32)
    (eh : W8 m ρ c (Proc.devRef .tc main_v25) = (TRef.of (sig := sig) (T := ⟨S100000x64, .f32⟩) main_v25).toBuf h)
    (es : W8 m ρ c (Proc.devRef .tc main_v1) = (TRef.of (sig := sig) (T := ⟨S1600000, .i32⟩) main_v1).toBuf s) :
    W9 m ρ c (Proc.devRef .tc main_v26) = takeRaw h s := by
  unfold W9; after_results_simp
  rw [eh, es]
  simp only [ofBuf_toBuf]
  refine (cast_id _ _).trans ?_
  unfold takeRaw wrapRaw
  rfl

/-- It leaves the destinations in place. -/
theorem dst_of_W9 (c : Dev nD) : W9 m ρ c (Proc.devRef .tc main_v3) = W8 m ρ c (Proc.devRef .tc main_v3) := by
  unfold W9; after_results_simp <;> rfl

/-- The second half sums what was gathered at the destination rows. -/
theorem agg_step_W10 (c : Dev nD) :
    W10 m ρ c (Proc.devRef .tc main_v29)
      = Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 (W9 m ρ c (Proc.devRef .tc main_v3)))
          (W9 m ρ c (Proc.devRef .tc main_v26)) := by
  unfold W10; after_results_simp <;> rfl

set_option maxHeartbeats 4000000 in
/-- The whole stretch sums, at the destination rows `d`, the rows of `h` gathered with fill at the sources `s`. -/
theorem agg_of_W10 (c : Dev nD) (h : FVec F S100000x64 .f32) (s d : IVec S1600000 32)
    (eh : W8 m ρ c (Proc.devRef .tc main_v25) = (TRef.of (sig := sig) (T := ⟨S100000x64, .f32⟩) main_v25).toBuf h)
    (es : W8 m ρ c (Proc.devRef .tc main_v1) = (TRef.of (sig := sig) (T := ⟨S1600000, .i32⟩) main_v1).toBuf s)
    (ed : W8 m ρ c (Proc.devRef .tc main_v3) = d) :
    W10 m ρ c (Proc.devRef .tc main_v29) = aggRaw h s d :=
  (agg_step_W10 m ρ c).trans
    (congrArg₂ (fun (d' : IVec S1600000 32) (u : FVec F S1600000x64 .f32) =>
        Host.scatterAdd scatter_S100000x64_S1600000x1_S1600000x64_1_0_0_1
          (broadcastInDim S100000x64 ![] bcast_S_S100000x64 (constant (F := F) S_ .f32 0x00000000#32))
          (broadcastInDim S1600000x1 ![0] bcast_S1600000_S1600000x1_0 d') u)
      ((dst_of_W9 m ρ c).trans ed) (take_of_W9 m ρ c h s eh es))

end AnyFloat

variable (m : (ℓ : Loc nD τ sig) → Buf (Elt Ideal) ℓ) (ρ : Dev nD → PrngReg)

/-! ## What the stretch reads is as launched -/

/-- The previous region wrote none of the sources, the destinations, the stacked weights, the classifier's. -/
theorem src_W8 (c : Dev nD) : W8 m ρ c (Proc.devRef .tc main_v1) = edgeRow 0 (a1 m c) (by decide) :=
  (W8_of_ne m ρ c main_v1 (by decide)).trans (src_W7 m ρ c)
theorem dst_W8 (c : Dev nD) : W8 m ρ c (Proc.devRef .tc main_v3) = edgeRow 1 (a1 m c) (by decide) :=
  (W8_of_ne m ρ c main_v3 (by decide)).trans (dst_W7 m ρ c)
theorem ws_W8 (c : Dev nD) : W8 m ρ c (Proc.devRef .tc main_arg4) = a4 m c :=
  (W8_of_ne m ρ c main_arg4 (by decide)).trans (ws_W7 m ρ c)
theorem bs_W8 (c : Dev nD) : W8 m ρ c (Proc.devRef .tc main_arg5) = a5 m c :=
  (W8_of_ne m ρ c main_arg5 (by decide)).trans (bs_W7 m ρ c)
theorem wcls_W8 (c : Dev nD) : W8 m ρ c (Proc.devRef .tc main_arg6) = a6 m c :=
  (W8_of_ne m ρ c main_arg6 (by decide)).trans (wcls_W7 m ρ c)
theorem bcls_W8 (c : Dev nD) : W8 m ρ c (Proc.devRef .tc main_arg7) = a7 m c :=
  (W8_of_ne m ρ c main_arg7 (by decide)).trans (bcls_W7 m ρ c)

/-! ## The stretch -/

/-- It leaves the previous rows in place … -/
theorem hin_W10 (c : Dev nD) : W10 m ρ c (Proc.devRef .tc main_v25) = W8 m ρ c (Proc.devRef .tc main_v25) := by
  unfold W10 W9; after_results_simp <;> rfl
/-- … sums the gathered source rows at the destination rows … -/
theorem agg_W10 (c : Dev nD) :
    W10 m ρ c (Proc.devRef .tc main_v29)
      = aggRaw (F := Ideal) (W8 m ρ c (Proc.devRef .tc main_v25)) (W8 m ρ c (Proc.devRef .tc main_v1)) (W8 m ρ c (Proc.devRef .tc main_v3)) :=
  agg_of_W10 m ρ c _ _ _ (cast_id _ _).symm (cast_id _ _).symm rfl
/-- … and cuts the layer's matrix and bias row out of the stacks. -/
theorem mat_W10 (c : Dev nD) : W10 m ρ c (Proc.devRef .tc main_v31) = wOf 2 (W8 m ρ c (Proc.devRef .tc main_arg4)) (by decide) := by
  unfold W10 W9; after_results_simp <;> rfl
theorem row_W10 (c : Dev nD) : W10 m ρ c (Proc.devRef .tc main_v34) = bOf 2 (W8 m ρ c (Proc.devRef .tc main_arg5)) (by decide) := by
  unfold W10 W9; after_results_simp <;> rfl

/-- It writes none of the arrays later stretches read. -/
theorem src_W10 (c : Dev nD) : W10 m ρ c (Proc.devRef .tc main_v1) = edgeRow 0 (a1 m c) (by decide) :=
  (by unfold W10 W9; after_results_simp <;> rfl : W10 m ρ c (Proc.devRef .tc main_v1) = W8 m ρ c (Proc.devRef .tc main_v1)).trans (src_W8 m ρ c)
theorem dst_W10 (c : Dev nD) : W10 m ρ c (Proc.devRef .tc main_v3) = edgeRow 1 (a1 m c) (by decide) :=
  (by unfold W10 W9; after_results_simp <;> rfl : W10 m ρ c (Proc.devRef .tc main_v3) = W8 m ρ c (Proc.devRef .tc main_v3)).trans (dst_W8 m ρ c)
theorem ws_W10 (c : Dev nD) : W10 m ρ c (Proc.devRef .tc main_arg4) = a4 m c :=
  (by unfold W10 W9; after_results_simp <;> rfl : W10 m ρ c (Proc.devRef .tc main_arg4) = W8 m ρ c (Proc.devRef .tc main_arg4)).trans (ws_W8 m ρ c)
theorem bs_W10 (c : Dev nD) : W10 m ρ c (Proc.devRef .tc main_arg5) = a5 m c :=
  (by unfold W10 W9; after_results_simp <;> rfl : W10 m ρ c (Proc.devRef .tc main_arg5) = W8 m ρ c (Proc.devRef .tc main_arg5)).trans (bs_W8 m ρ c)
theorem wcls_W10 (c : Dev nD) : W10 m ρ c (Proc.devRef .tc main_arg6) = a6 m c :=
  (by unfold W10 W9; after_results_simp <;> rfl : W10 m ρ c (Proc.devRef .tc main_arg6) = W8 m ρ c (Proc.devRef .tc main_arg6)).trans (wcls_W8 m ρ c)
theorem bcls_W10 (c : Dev nD) : W10 m ρ c (Proc.devRef .tc main_arg7) = a7 m c :=
  (by unfold W10 W9; after_results_simp <;> rfl : W10 m ρ c (Proc.devRef .tc main_arg7) = W8 m ρ c (Proc.devRef .tc main_arg7)).trans (bcls_W8 m ρ c)

/-! ## The region -/

/-- After region 3 its output array is layer 2 of the previous rows. -/
theorem rows_W11 (c : Dev nD) (hs : InRange (edgeRow 0 (a1 m c) (by decide))) :
    W11 m ρ c (Proc.devRef .tc main_v35)
      = step 2 (W8 m ρ c (Proc.devRef .tc main_v25)) (a1 m c) (a4 m c) (a5 m c) (by decide) (by decide) := by
  refine (W11_arr m ρ c 4).trans ((final3 (V10 m ρ) c).trans ?_)
  show layer (W10 m ρ c (Proc.devRef .tc main_v25)) (W10 m ρ c (Proc.devRef .tc main_v29)) (W10 m ρ c (Proc.devRef .tc main_v31)) (W10 m ρ c (Proc.devRef .tc main_v34)) = _
  rw [hin_W10, agg_W10, mat_W10, row_W10, src_W8, dst_W8, ws_W8, bs_W8, aggRaw_eq _ _ hs]
  rfl

end Cert.KernelIdeal.NetValue

end
-- ==== Proof.Region4.lean ====
import proofs.«426346_j35716948034358_1_alg».proof.Proof.Gen.KernelIdeal.Frame
import proofs.«426346_j35716948034358_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Cert.KernelIdeal Cert.KernelIdeal.Gen
open Idealize.ShloMosaic.ValueIdx

namespace Cert.KernelIdeal.RegionValue

variable (V : (c : Dev nD) → (b : Ref sig .tc) → Buf (Elt Ideal) ((c : Thread nD τ).loc b))

namespace Region4

/-! ## The body's arithmetic at one entry -/

/-- The product's left operand index keeps the output's row on axis 0. -/
theorem lhs4_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
/-- The product's left operand index carries the contraction coordinate on axis 1. -/
theorem lhs4_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
/-- The product's right operand index carries the contraction coordinate on axis 0. -/
theorem rhs4_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
/-- The product's right operand index keeps the output's column on axis 1. -/
theorem rhs4_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The block product into the zero accumulator, at entry `(p, q)`: the sum over the 64 contracted coordinates. -/
theorem mm4_apply (a : FVec Ideal S5000x64 .bf16) (b : FVec Ideal S64x40 .bf16) (p : Fin 5000) (q : Fin 40) :
    matmul dot_S5000x64_S64x40_S5000x40_1_0_0_1_n_n none a b (constant (F := Ideal) S5000x40 .f32 0x00000000#32) (ix2 p q)
      = ∑ k : Fin 64, a (ix2 p k) * b (ix2 k q) := by
  simp only [matmul]
  rw [Ideal.matmul_constant_zero_apply, ← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  have el : dot_S5000x64_S64x40_S5000x40_1_0_0_1_n_n.lhsIdx (ix2 p q) ((ValueIdx.contrEquiv1 dot_S5000x64_S64x40_S5000x40_1_0_0_1_n_n 64 rfl rfl).symm k) = ix2 p k := funext fun a => Fin.ext (by
    match a with
    | ⟨0, _⟩ => exact lhs4_0 _ _
    | ⟨1, _⟩ => exact (lhs4_1 _ _).trans hk)
  have er : dot_S5000x64_S64x40_S5000x40_1_0_0_1_n_n.rhsIdx (ix2 p q) ((ValueIdx.contrEquiv1 dot_S5000x64_S64x40_S5000x40_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-- The one-row bias spread over the block's rows, at entry `(p, q)`: the row's entry `q`. -/
theorem bias4_apply (x2 : FVec Ideal S1x40 .f32) (p : Fin 5000) (q : Fin 40) :
    broadcastTo S5000x40 x2 broadcasts_S1x40_S5000x40 (ix2 p q) = x2 (ix2 (0 : Fin 1) q) := by
  refine broadcastTo_apply x2 broadcasts_S1x40_S5000x40 (ix2 p q) (ix2 (0 : Fin 1) q) (fun a => ?_)
  match a with
  | ⟨0, _⟩ => rfl
  | ⟨1, _⟩ => rfl

/-- The body's stored value at entry `(p, q)` of the block: the row of the first operand times the column of the
    second, plus the bias row's entry. -/
theorem pay4_apply (x0 : Vec Ideal S5000x64 .f32) (x1 : Vec Ideal S64x40 .f32) (x2 : Vec Ideal S1x40 .f32) (p : Fin 5000) (q : Fin 40) :
    k4_pay1 (F := Ideal) x0 x1 x2 (ix2 p q) = (∑ k : Fin 64, x0 (ix2 p k) * x1 (ix2 k q)) + x2 (ix2 (0 : Fin 1) q) := by
  unfold k4_pay1
  rw [addf_apply, mm4_apply, shapeCast_self, shapeCast_self, bias4_apply]
  rfl

/-! ## From the blocks to the array -/

/-- The zero offsets of a whole-block access, as the constant function. -/
theorem hz4 : (![0, 0] : Fin 2 → Nat) = fun _ => 0 := funext fun a => by fin_cases a <;> rfl

/-- The index maps over the grid of 20 points: the row blocks of the first operand and of the output are both numbered
    by the grid point, on column block 0; the second operand and the bias are each their one block. -/
theorem idx_facts4 : ∀ t : Fin cfg4.N, t.val < 20
    ∧ win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- The first operand's block at point `t`, at `(p, k)`: the array at row `5000 t + p`, column `k`. -/
theorem xblk4_read (c : Dev nD) (t : Fin cfg4.N) (p : Fin 5000) (k : Fin 64) (i : Cert.Spec.SN64.Idx)
    (h0 : (i 0).val = t.val * 5000 + p.val) (h1 : (i 1).val = k.val) :
    (iblk4 (F := Ideal) V c 0 t : Vec Ideal S5000x64 .f32) (ix2 p k) = V c main_v35 i := by
  obtain ⟨-, e00, e01, -⟩ := idx_facts4 t
  show V c main_v35 (((cfg4.win 0).blk t).view.emb (ix2 p k)) = V c main_v35 i
  refine congrArg (V c main_v35) (funext fun a => Fin.ext ?_)
  match a with
  | ⟨0, _⟩ => show win4_0.index t (0 : Fin 2) * 5000 + 1 * p.val = (i 0).val; omega
  | ⟨1, _⟩ => show win4_0.index t (1 : Fin 2) * 64 + 1 * k.val = (i 1).val; omega

/-- The second operand's one block at any point, at `(k, q)`: the array there. -/
theorem wblk4_read (c : Dev nD) (t : Fin cfg4.N) (k : Fin 64) (q : Fin 40) (i : Cert.Spec.S64x40.Idx)
    (h0 : (i 0).val = k.val) (h1 : (i 1).val = q.val) :
    (iblk4 (F := Ideal) V c 1 t : Vec Ideal S64x40 .f32) (ix2 k q) = V c main_arg6 i := by
  obtain ⟨-, -, -, e10, e11, -⟩ := idx_facts4 t
  show V c main_arg6 (((cfg4.win 1).blk t).view.emb (ix2 k q)) = V c main_arg6 i
  refine congrArg (V c main_arg6) (funext fun a => Fin.ext ?_)
  match a with
  | ⟨0, _⟩ => show win4_1.index t (0 : Fin 2) * 64 + 1 * k.val = (i 0).val; omega
  | ⟨1, _⟩ => show win4_1.index t (1 : Fin 2) * 40 + 1 * q.val = (i 1).val; omega

/-- The bias row's one block at any point, at `(0, q)`: the row's entry `q`. -/
theorem bblk4_read (c : Dev nD) (t : Fin cfg4.N) (q : Fin 40) (i : Cert.Spec.S1x40.Idx)
    (h0 : (i 0).val = 0) (h1 : (i 1).val = q.val) :
    (iblk4 (F := Ideal) V c 2 t : Vec Ideal S1x40 .f32) (ix2 (0 : Fin 1) q) = V c main_v36 i := by
  obtain ⟨-, -, -, -, -, e20, e21, -⟩ := idx_facts4 t
  show V c main_v36 (((cfg4.win 2).blk t).view.emb (ix2 (0 : Fin 1) q)) = V c main_v36 i
  refine congrArg (V c main_v36) (funext fun a => Fin.ext ?_)
  match a with
  | ⟨0, _⟩ => show win4_2.index t (0 : Fin 2) * 1 + 1 * 0 = (i 0).val; omega
  | ⟨1, _⟩ => show win4_2.index t (1 : Fin 2) * 40 + 1 * q.val = (i 1).val; omega

/-- What point `t` writes back is block `t` of the classifier of the arrays the region found. -/
theorem flushed4_eq (c : Dev nD) (t : Fin cfg4.N) :
    (dat4 (F := Ideal) V c).flushed 3 t = ((cfg4.win 3).blk t).view.read (Elt Ideal) (Cert.Spec.cls (V c main_v35) (V c main_arg6) (V c main_v36)) := by
  show (cfg4.win 3).cut (grid4.coords t) ((dat4 (F := Ideal) V c).after 3 t) = _
  rw [after4_3]
  unfold out4_3
  rw [View.canon_unit_zero hz4]
  simp only [View.ld_unit_zero (S := S5000x64) hz4, View.ld_unit_zero (S := S64x40) hz4, View.ld_unit_zero (S := S1x40) hz4]
  obtain ⟨-, -, -, -, -, -, -, e30, e31⟩ := idx_facts4 t
  refine funext fun (j : S5000x40.Idx) => ?_
  obtain ⟨p, q, rfl⟩ : ∃ (p : Fin 5000) (q : Fin 40), j = ix2 p q := ⟨j 0, j 1, eq_ix2 j⟩
  show k4_pay1 (F := Ideal) (iblk4 (F := Ideal) V c 0 t) (iblk4 (F := Ideal) V c 1 t) (iblk4 (F := Ideal) V c 2 t) (ix2 p q)
    = Cert.Spec.cls (V c main_v35) (V c main_arg6) (V c main_v36) (((cfg4.win 3).blk t).view.emb (ix2 p q))
  refine (pay4_apply (iblk4 (F := Ideal) V c 0 t) (iblk4 (F := Ideal) V c 1 t) (iblk4 (F := Ideal) V c 2 t) p q).trans ?_
  have r0 : ((((cfg4.win 3).blk t).view.emb (ix2 p q) : Cert.Spec.SN40.Idx) 0).val = t.val * 5000 + p.val := by
    show win4_3.index t (0 : Fin 2) * 5000 + 1 * p.val = _; omega
  have r1 : ((((cfg4.win 3).blk t).view.emb (ix2 p q) : Cert.Spec.SN40.Idx) 1).val = q.val := by
    show win4_3.index t (1 : Fin 2) * 40 + 1 * q.val = _; omega
  unfold Cert.Spec.cls
  refine congrArg₂ (· + ·) (Finset.sum_congr rfl fun k _ => congrArg₂ (· * ·) ?_ ?_) ?_
  · exact xblk4_read V c t p k _ r0 rfl
  · exact wblk4_read V c t k q _ rfl r1
  · exact bblk4_read V c t q _ rfl r1

/-- An index of the array is in point `t`'s block iff each coordinate is in the block's range on its axis. -/
theorem mem_blk4 (t : Fin cfg4.N) (i : S100000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v37).slice (win4_3.rect t)).set ↔ _
  rw [View.set_slice_whole, Rect.mem_set_unit]
  exact Iff.rfl

/-- Every index of the array is in some point's block: row `r` lies in row block `r / 5000`, and the one column
    block holds all 40 columns. -/
theorem cover4 (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  obtain ⟨t, ht⟩ : ∃ t : Fin cfg4.N, t.val = (i 0).val / 5000 :=
    ⟨⟨(i 0).val / 5000, by show (i 0).val / 5000 < 20; omega⟩, rfl⟩
  obtain ⟨-, -, -, -, -, -, -, e30, e31⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 40 ≤ (i 1).val ∧ (i 1).val < win4_3.index t (1 : Fin 2) * 40 + 40; omega

end Region4

/-- After region 4 its output array is the classifier of the arrays the region found. -/
theorem final4 (c : Dev nD) :
    (dat4 (F := Ideal) V c).arrAt 3 cfg4.N = Cert.Spec.cls (V c main_v35) (V c main_arg6) (V c main_v36) :=
  (dat4 (F := Ideal) V c).arrAt_eq_of_cover 3 (Cert.Spec.cls (V c main_v35) (V c main_arg6) (V c main_v36))
    (fun t _ => Region4.flushed4_eq V c t) Region4.cover4

end Cert.KernelIdeal.RegionValue

end
-- ==== Proof.KernelNet.lean ====
/-
  The idealized kernel's result array is the network of Proof/Spec.lean of the launch arrays, where every
  source node number is in range.

  After the three layers the last stretch of host operations lays the classifier's bias out as a row and writes
  nothing else; region 4 leaves the classifier of the last layer's rows. Chained with the layers and the
  input projection, the result array is the whole network of the arrays the program was launched on.
-/
import proofs.«426346_j35716948034358_1_alg».proof.Proof.KernelLayer2
import proofs.«426346_j35716948034358_1_alg».proof.Proof.Region4

set_option maxRecDepth 16384

noncomputable section

open Idealize.ShloMosaic Idealize.ShloMosaic.TcCoe Idealize.SL.Sem Idealize.ShloMosaic.StableHlo
open Cert.KernelIdeal Cert.KernelIdeal.Gen Cert.KernelIdeal.RegionValue Cert.Spec Cert.TakeFill

namespace Cert.KernelIdeal.NetValue

variable (m : (ℓ : Loc nD τ sig) → Buf (Elt Ideal) ℓ) (ρ : Dev nD → PrngReg)

/-- Region 3 wrote neither of the classifier's arrays. -/
theorem wcls_W11 (c : Dev nD) : W11 m ρ c (Proc.devRef .tc main_arg6) = a6 m c :=
  (W11_of_ne m ρ c main_arg6 (by decide)).trans (wcls_W10 m ρ c)
theorem bcls_W11 (c : Dev nD) : W11 m ρ c (Proc.devRef .tc main_arg7) = a7 m c :=
  (W11_of_ne m ρ c main_arg7 (by decide)).trans (bcls_W10 m ρ c)

/-- The last stretch leaves the last layer's rows and the classifier's matrix in place … -/
theorem hin_W12 (c : Dev nD) : W12 m ρ c (Proc.devRef .tc main_v35) = W11 m ρ c (Proc.devRef .tc main_v35) := by
  unfold W12; after_results_simp <;> rfl
theorem wcls_W12 (c : Dev nD) : W12 m ρ c (Proc.devRef .tc main_arg6) = a6 m c :=
  (by unfold W12; after_results_simp <;> rfl : W12 m ρ c (Proc.devRef .tc main_arg6) = W11 m ρ c (Proc.devRef .tc main_arg6)).trans (wcls_W11 m ρ c)
/-- … and lays the classifier's bias out as a row. -/
theorem row_W12 (c : Dev nD) : W12 m ρ c (Proc.devRef .tc main_v36) = shapeCast S1x40 (a7 m c) (by decide) := by
  have e : W12 m ρ c (Proc.devRef .tc main_v36)
      = shapeCast S1x40 (show FVec Ideal S40 .f32 from W11 m ρ c (Proc.devRef .tc main_arg7)) (by decide) := by
    unfold W12; after_results_simp <;> rfl
  rw [e, bcls_W11]

/-- THE RESULT: after region 4 the result array is the network of the launch arrays. -/
theorem out_eq (c : Dev nD) (hs : InRange (edgeRow 0 (a1 m c) (by decide))) :
    W13 m ρ c (Proc.devRef .tc main_v37)
      = net (a0 m c) (a1 m c) (a2 m c) (a3 m c) (a4 m c) (a5 m c) (a6 m c) (a7 m c) := by
  refine (W13_arr m ρ c 3).trans ((final4 (V12 m ρ) c).trans ?_)
  show cls (W12 m ρ c (Proc.devRef .tc main_v35)) (W12 m ρ c (Proc.devRef .tc main_arg6)) (W12 m ρ c (Proc.devRef .tc main_v36)) = _
  rw [hin_W12, wcls_W12, row_W12, rows_W11 m ρ c hs, rows_W8 m ρ c hs, rows_W5 m ρ c hs, rows_W2]
  rfl

end Cert.KernelIdeal.NetValue

end
-- ==== Proof.RefNet.lean ====
/-
  The reference program's result is the network of Proof/Spec.lean: stage by stage its operations, read at
  an index, are the projection, the three layers and the classifier; its gather and scatter are the
  aggregation's own two operations.
-/
import proofs.«426346_j35716948034358_1_alg».proof.Proof.Gen.ReferenceIdeal.Read
import proofs.«426346_j35716948034358_1_alg».proof.Proof.Spec
import Idealize.ShloMosaic.Lib.Pipeline.Value
import Idealize.ShloMosaic.Lib.ValueIdx
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.TcCoe Idealize.ShloMosaic.ValueIdx Cert.Spec

/-- A 64-vector reshaped to one row, read at `(0, q)`, is the vector at `q`. -/
theorem row64_apply (v : FVec Ideal S64 .f32) (h : S64.ShapeCasts S1x64) (q : Fin 64) :
    shapeCast S1x64 v h (ix2 (0 : Fin 1) q) = v (ix1 q) := by
  refine shapeCast_apply v h _ _ ?_
  rewrite [Shape.rowMajor_val_two, Shape.rowMajor_val_one]
  show q.val = 0 * 64 + q.val
  omega

/-- The f32 zero literal is the extended real `0`. -/
theorem zero_lit : (FloatOps.ofBits .f32 0x00000000#32 : Ideal .f32) = 0 := Ideal.ofBits_zero_f32

/-- The projection's left operand is read at row `i`, column `k`. -/
theorem lidx4 (i : S100000x64.Idx) (k : Fin 128) : lidx_main_v4 i k = ix2 (row i) k :=
  funext fun a => match a with | ⟨0, _⟩ => rfl | ⟨1, _⟩ => rfl
/-- The projection's right operand is read at row `k`, column of `i`. -/
theorem ridx4 (i : S100000x64.Idx) (k : Fin 128) : ridx_main_v4 i k = ix2 k (col i) :=
  funext fun a => match a with | ⟨0, _⟩ => rfl | ⟨1, _⟩ => rfl
/-- The projection's bias is read at the column of `i`. -/
theorem bidx6 (i : S100000x64.Idx) : idx_main_v5 (idx_main_v6 i) = ix1 (col i) :=
  funext fun a => match a with | ⟨0, _⟩ => rfl

/-- The input projection: the first product, its bias and the clamp at zero. -/
theorem v8_eq (x0 : FVec Ideal SN128 .f32) (x2 : FVec Ideal S128x64 .f32) (x3 : FVec Ideal S64 .f32) :
    val_main_v8 (F := Ideal) x0 x2 x3 = proj x0 x2 (shapeCast S1x64 x3 (by decide)) := by
  funext i
  rw [val_main_v8_apply, val_main_v7_apply, val_main_v4_apply, val_main_v6_apply, val_main_v5_apply,
    val_main_call0_v0_apply, val_main_call0_cst_apply]
  unfold proj
  rw [row64_apply, Ideal.maximumf_def, Ideal.addf_def, zero_lit, bidx6]
  simp only [lidx4, ridx4]

/-- The first aggregation is the specification's, over the projected rows. -/
theorem agg18_eq (x0 : FVec Ideal SN128 .f32) (x1 : IVec S2xE 32) (x2 : FVec Ideal S128x64 .f32) (x3 : FVec Ideal S64 .f32) :
    val_main_v18 (F := Ideal) x0 x1 x2 x3 = agg (val_main_v8 (F := Ideal) x0 x2 x3) x1 := rfl

/-- The second aggregation is the specification's, over the first layer's rows. -/
theorem agg38_eq (x0 : FVec Ideal SN128 .f32) (x1 : IVec S2xE 32) (x2 : FVec Ideal S128x64 .f32) (x3 : FVec Ideal S64 .f32)
    (x4 : FVec Ideal S3x64x64 .f32) (x5 : FVec Ideal S3x64 .f32) :
    val_main_v38 (F := Ideal) x0 x1 x2 x3 x4 x5 = agg (val_main_v28 (F := Ideal) x0 x1 x2 x3 x4 x5) x1 := rfl

/-- The third aggregation is the specification's, over the second layer's rows. -/
theorem agg58_eq (x0 : FVec Ideal SN128 .f32) (x1 : IVec S2xE 32) (x2 : FVec Ideal S128x64 .f32) (x3 : FVec Ideal S64 .f32)
    (x4 : FVec Ideal S3x64x64 .f32) (x5 : FVec Ideal S3x64 .f32) :
    val_main_v58 (F := Ideal) x0 x1 x2 x3 x4 x5 = agg (val_main_v48 (F := Ideal) x0 x1 x2 x3 x4 x5) x1 := rfl

/-- A layer's left operand is read at row `i`, column `k`. -/
theorem lidx22 (i : S100000x64.Idx) (k : Fin 64) : lidx_main_v22 i k = ix2 (row i) k :=
  funext fun a => match a with | ⟨0, _⟩ => rfl | ⟨1, _⟩ => rfl
/-- A layer's right operand is read at row `k`, column of `i`. -/
theorem ridx22 (i : S100000x64.Idx) (k : Fin 64) : ridx_main_v22 i k = ix2 k (col i) :=
  funext fun a => match a with | ⟨0, _⟩ => rfl | ⟨1, _⟩ => rfl
/-- A layer's bias is read at the column of `i`. -/
theorem bidx26 (i : S100000x64.Idx) : idx_main_v25 (idx_main_v26 i) = ix1 (col i) :=
  funext fun a => match a with | ⟨0, _⟩ => rfl

/-- A layer's dense half read at an index: the sum over the contracted axis of (row plus aggregate) times the
    matrix, plus the bias at the column, clamped at zero, is the specification's layer over the bias as one row. -/
theorem layer_read (h a : FVec Ideal SN64 .f32) (w : FVec Ideal S64x64 .f32) (b : FVec Ideal S64 .f32)
    (hc : S64.ShapeCasts S1x64) (i : S100000x64.Idx) :
    max ((∑ k : Fin 64, (h (lidx_main_v22 i k) + a (lidx_main_v22 i k)) * w (ridx_main_v22 i k))
      + b (idx_main_v25 (idx_main_v26 i))) 0 = layer h a w (shapeCast S1x64 b hc) i := by
  unfold layer
  rw [row64_apply, bidx26]
  simp only [lidx22, ridx22]

/-- The first layer's dense half. -/
theorem v28_eq (x0 : FVec Ideal SN128 .f32) (x1 : IVec S2xE 32) (x2 : FVec Ideal S128x64 .f32) (x3 : FVec Ideal S64 .f32)
    (x4 : FVec Ideal S3x64x64 .f32) (x5 : FVec Ideal S3x64 .f32) :
    val_main_v28 (F := Ideal) x0 x1 x2 x3 x4 x5 =
      layer (val_main_v8 (F := Ideal) x0 x2 x3) (val_main_v18 (F := Ideal) x0 x1 x2 x3) (wOf 0 x4 (by decide)) (bOf 0 x5 (by decide)) := by
  funext i
  rw [val_main_v28_apply, val_main_v27_apply, val_main_v22_apply, val_main_v26_apply, val_main_v25_apply,
    val_main_call1_v0_apply, val_main_call1_cst_apply, Ideal.maximumf_def, Ideal.addf_def, zero_lit]
  exact layer_read (val_main_v8 (F := Ideal) x0 x2 x3) (val_main_v18 (F := Ideal) x0 x1 x2 x3)
    (val_main_v21 (F := Ideal) x4) (val_main_v24 (F := Ideal) x5) (by decide) i

/-- The second layer's dense half. -/
theorem v48_eq (x0 : FVec Ideal SN128 .f32) (x1 : IVec S2xE 32) (x2 : FVec Ideal S128x64 .f32) (x3 : FVec Ideal S64 .f32)
    (x4 : FVec Ideal S3x64x64 .f32) (x5 : FVec Ideal S3x64 .f32) :
    val_main_v48 (F := Ideal) x0 x1 x2 x3 x4 x5 =
      layer (val_main_v28 (F := Ideal) x0 x1 x2 x3 x4 x5) (val_main_v38 (F := Ideal) x0 x1 x2 x3 x4 x5)
        (wOf 1 x4 (by decide)) (bOf 1 x5 (by decide)) := by
  funext i
  rw [val_main_v48_apply, val_main_v47_apply, val_main_v42_apply, val_main_v46_apply, val_main_v45_apply,
    val_main_call2_v0_apply, val_main_call2_cst_apply, Ideal.maximumf_def, Ideal.addf_def, zero_lit]
  exact layer_read (val_main_v28 (F := Ideal) x0 x1 x2 x3 x4 x5) (val_main_v38 (F := Ideal) x0 x1 x2 x3 x4 x5)
    (val_main_v41 (F := Ideal) x4) (val_main_v44 (F := Ideal) x5) (by decide) i

/-- The third layer's dense half. -/
theorem v68_eq (x0 : FVec Ideal SN128 .f32) (x1 : IVec S2xE 32) (x2 : FVec Ideal S128x64 .f32) (x3 : FVec Ideal S64 .f32)
    (x4 : FVec Ideal S3x64x64 .f32) (x5 : FVec Ideal S3x64 .f32) :
    val_main_v68 (F := Ideal) x0 x1 x2 x3 x4 x5 =
      layer (val_main_v48 (F := Ideal) x0 x1 x2 x3 x4 x5) (val_main_v58 (F := Ideal) x0 x1 x2 x3 x4 x5)
        (wOf 2 x4 (by decide)) (bOf 2 x5 (by decide)) := by
  funext i
  rw [val_main_v68_apply, val_main_v67_apply, val_main_v62_apply, val_main_v66_apply, val_main_v65_apply,
    val_main_call3_v0_apply, val_main_call3_cst_apply, Ideal.maximumf_def, Ideal.addf_def, zero_lit]
  exact layer_read (val_main_v48 (F := Ideal) x0 x1 x2 x3 x4 x5) (val_main_v58 (F := Ideal) x0 x1 x2 x3 x4 x5)
    (val_main_v61 (F := Ideal) x4) (val_main_v64 (F := Ideal) x5) (by decide) i

/-- A 40-vector reshaped to one row, read at `(0, q)`, is the vector at `q`. -/
theorem row40_apply (v : FVec Ideal S40 .f32) (h : S40.ShapeCasts S1x40) (q : Fin 40) :
    shapeCast S1x40 v h (ix2 (0 : Fin 1) q) = v (ix1 q) := by
  refine shapeCast_apply v h _ _ ?_
  rewrite [Shape.rowMajor_val_two, Shape.rowMajor_val_one]
  show q.val = 0 * 40 + q.val
  omega

/-- The classifier's left operand is read at row `i`, column `k`. -/
theorem lidx69 (i : S100000x40.Idx) (k : Fin 64) : lidx_main_v69 i k = ix2 (row i) k :=
  funext fun a => match a with | ⟨0, _⟩ => rfl | ⟨1, _⟩ => rfl
/-- The classifier's right operand is read at row `k`, column of `i`. -/
theorem ridx69 (i : S100000x40.Idx) (k : Fin 64) : ridx_main_v69 i k = ix2 k (col i) :=
  funext fun a => match a with | ⟨0, _⟩ => rfl | ⟨1, _⟩ => rfl
/-- The classifier's bias is read at the column of `i`. -/
theorem bidx71 (i : S100000x40.Idx) : idx_main_v70 (idx_main_v71 i) = ix1 (col i) :=
  funext fun a => match a with | ⟨0, _⟩ => rfl

/-- The classifier: the last product and its bias. -/
theorem v72_eq (x0 : FVec Ideal SN128 .f32) (x1 : IVec S2xE 32) (x2 : FVec Ideal S128x64 .f32) (x3 : FVec Ideal S64 .f32)
    (x4 : FVec Ideal S3x64x64 .f32) (x5 : FVec Ideal S3x64 .f32) (x6 : FVec Ideal S64x40 .f32) (x7 : FVec Ideal S40 .f32) :
    val_main_v72 (F := Ideal) x0 x1 x2 x3 x4 x5 x6 x7 =
      cls (val_main_v68 (F := Ideal) x0 x1 x2 x3 x4 x5) x6 (shapeCast S1x40 x7 (by decide)) := by
  funext i
  rw [val_main_v72_apply, val_main_v69_apply, val_main_v71_apply, val_main_v70_apply, Ideal.addf_def]
  unfold cls
  rw [row40_apply, bidx71]
  simp only [lidx69, ridx69]

/-- The reference's result, as a function of its eight arguments, is the network. -/
theorem result_eq (x0 : FVec Ideal SN128 .f32) (x1 : IVec S2xE 32) (x2 : FVec Ideal S128x64 .f32) (x3 : FVec Ideal S64 .f32)
    (x4 : FVec Ideal S3x64x64 .f32) (x5 : FVec Ideal S3x64 .f32) (x6 : FVec Ideal S64x40 .f32) (x7 : FVec Ideal S40 .f32) :
    val_main_v72 (F := Ideal) x0 x1 x2 x3 x4 x5 x6 x7 = net x0 x1 x2 x3 x4 x5 x6 x7 := by
  unfold net step
  rw [v72_eq, v68_eq, agg58_eq, v48_eq, agg38_eq, v28_eq, agg18_eq, v8_eq]

end Cert.ReferenceIdeal.RefNet

end
-- ==== Proof.lean ====
/-
  A graph network with three message-passing layers: a Pallas kernel (five tiled dense stages, the
  irregular gather and scatter-add left to the host) against its jnp reference, over the extended reals.

  Both programs compute the network of Proof/Spec.lean: an input projection `max (x · W + b) 0`, three
  layers `h ↦ max ((h + agg h) · Wₖ + bₖ) 0` where `agg h` sums, at each node, the rows of `h` at the
  sources of the edges that end there, and a classifier `h · W + b`. The kernel's dense stages are tiled
  over blocks of 5000 rows and round their matrix operands to bf16 on the way in, which is the identity here;
  every entry of a block is the same sum over the contracted axis as the reference's whole product, so no law
  of arithmetic beyond reading both sides index by index is needed, and the finiteness of the inputs is not
  used. The one difference is the gather: the kernel's replaces a row whose source number is out of range by a
  fill value where the reference's clamps the number, so the two agree exactly where every source is a node
  number in `[0, 100000)` — the precondition's last conjunct (Proof/PreSrc.lean reads it). The destinations go
  through the same scatter in both programs and need nothing.

  Kernel side: the run with the result named (Proof/KernelRun.lean), the result as the network
  (Proof/KernelNet.lean over Proof/KernelHost.lean, Proof/KernelLayer0..2.lean and the regions'
  Proof/Region0..4.lean). Reference side: its generated run, and the result as the network (Proof/RefNet.lean).
-/
import proofs.«426346_j35716948034358_1_alg».proof.Defs
import proofs.«426346_j35716948034358_1_alg».proof.Proof.Gen.Kernel
import proofs.«426346_j35716948034358_1_alg».proof.Proof.Gen.Kernel.Skeleton
import proofs.«426346_j35716948034358_1_alg».proof.Proof.Gen.Kernel.Launch
import proofs.«426346_j35716948034358_1_alg».proof.Proof.Gen.Kernel.Points
import proofs.«426346_j35716948034358_1_alg».proof.Proof.Gen.Kernel.Frame
import proofs.«426346_j35716948034358_1_alg».proof.Proof.Gen.KernelIdeal
import proofs.«426346_j35716948034358_1_alg».proof.Proof.Gen.KernelIdeal.Skeleton
import proofs.«426346_j35716948034358_1_alg».proof.Proof.Gen.KernelIdeal.Launch
import proofs.«426346_j35716948034358_1_alg».proof.Proof.Gen.KernelIdeal.Points
import proofs.«426346_j35716948034358_1_alg».proof.Proof.Gen.KernelIdeal.Frame
import proofs.«426346_j35716948034358_1_alg».proof.Proof.Gen.ReferenceIdeal
import proofs.«426346_j35716948034358_1_alg».proof.Proof.Gen.ReferenceIdeal.Run
import proofs.«426346_j35716948034358_1_alg».proof.Proof.Gen.ReferenceIdeal.Read
import proofs.«426346_j35716948034358_1_alg».proof.Proof.Gen.Pre_finite_inputs
import proofs.«426346_j35716948034358_1_alg».proof.Proof.PreSrc
import proofs.«426346_j35716948034358_1_alg».proof.Proof.KernelRun
import proofs.«426346_j35716948034358_1_alg».proof.Proof.KernelNet
import proofs.«426346_j35716948034358_1_alg».proof.Proof.RefNet
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments and satisfy the precondition, both programs end with the network of
    the arguments in their result arrays. -/
theorem algebraic : Cert.algebraic_KernelIdeal_ReferenceIdeal := by
  intro m ρ m' ρ' hpre hagree
  have hs : ∀ c : Dev Cert.KernelIdeal.nD,
      Cert.TakeFill.InRange (Cert.Spec.edgeRow 0 (Cert.KernelIdeal.NetValue.a1 m c) (by decide)) := fun c =>
    Cert.PreSrc.src_inRange _ _ _ _ _ _ _ _ (hpre c)
  refine ⟨fun c => Cert.Spec.net (Cert.KernelIdeal.NetValue.a0 m c) (Cert.KernelIdeal.NetValue.a1 m c)
      (Cert.KernelIdeal.NetValue.a2 m c) (Cert.KernelIdeal.NetValue.a3 m c) (Cert.KernelIdeal.NetValue.a4 m c)
      (Cert.KernelIdeal.NetValue.a5 m c) (Cert.KernelIdeal.NetValue.a6 m c) (Cert.KernelIdeal.NetValue.a7 m c), ?_, ?_⟩
  · exact (θ_run Cert.KernelIdeal.defs _ _).mono
      (fun r h c => ⟨(h c).1.trans (Cert.KernelIdeal.NetValue.out_eq m ρ c (hs c)), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.ReferenceIdeal.RefNet.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
